-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S3200000x2 : Shape := ⟨2, ![3200000, 2]⟩
abbrev S2x3200000 : Shape := ⟨2, ![2, 3200000]⟩
abbrev S2x10 : Shape := ⟨2, ![2, 10]⟩
abbrev S10 : Shape := ⟨1, ![10]⟩
abbrev S14x10 : Shape := ⟨2, ![14, 10]⟩
abbrev S2x2 : Shape := ⟨2, ![2, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_
  bcast_S_S2x10 : S_.BroadcastsInDim S2x10 (![] : Fin 0 → Fin S2x10.rank)
  reducesTo_S2x10_S_d0_1 : S2x10.ReducesTo [0, 1] S_
  bcast_S_S10 : S_.BroadcastsInDim S10 (![] : Fin 0 → Fin S10.rank)
  reducesTo_S10_S_d0 : S10.ReducesTo [0] S_
  bcast_S_S14x10 : S_.BroadcastsInDim S14x10 (![] : Fin 0 → Fin S14x10.rank)
  reducesTo_S14x10_S_d0_1 : S14x10.ReducesTo [0, 1] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part2 {F : FTy → Type} [FloatOps F] (main_arg2 : IVec S2x3200000 32) (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_c_14 : IVec S_ 32 := constantI S_ 32 0#32
  let main_v39 : IVec S2x3200000 32 := broadcastInDim S2x3200000 ![] bcast_S_S2x3200000 main_c_14
  let main_v40 : IVec S2x3200000 1 := cmpi .sge main_arg2 main_v39
  let main_c_15 : IVec S_ 32 := constantI S_ 32 100000#32
  let main_v41 : IVec S2x3200000 32 := broadcastInDim S2x3200000 ![] bcast_S_S2x3200000 main_c_15
  let main_v42 : IVec S2x3200000 1 := cmpi .slt main_arg2 main_v41
  let main_v43 : IVec S2x3200000 1 := andi main_v40 main_v42
  let main_c_16 : IVec S_ 1 := constantI S_ 1 1#1
  let main_v44 : IVec S_ 1 := (fun x v => Host.reduce IntOp.andi x v reducesTo_S2x3200000_S_d0_1 h_S_) main_v43 main_c_16
  let main_v45 : IVec S_ 1 := andi main_v38 main_v44
  main_v45

def fn_part1 {F : FTy → Type} [FloatOps F] (main_arg2 : IVec S2x3200000 32) (main_arg5 : FVec F S14x10 .f32) (main_arg6 : FVec F S10 .f32) (main_arg7 : FVec F S2x2 .f32) (main_arg8 : FVec F S2 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S14x10 .f32 := Host.absf main_arg5
  let main_cst_6 : FVec F S_ .f32 := constant S_ .f32 0x7F800000#32
  let main_v20 : FVec F S14x10 .f32 := broadcastInDim S14x10 ![] bcast_S_S14x10 main_cst_6
  let main_v21 : IVec S14x10 1 := cmpf .olt main_v19 main_v20
  let main_c_7 : IVec S_ 1 := constantI S_ 1 1#1
  let main_v22 : IVec S_ 1 := (fun x v => Host.reduce IntOp.andi x v reducesTo_S14x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S2x2 .f32 := Host.absf main_arg7
  let main_cst_10 : FVec F S_ .f32 := constant S_ .f32 0x7F800000#32
  let main_v30 : FVec F S2x2 .f32 := broadcastInDim S2x2 ![] bcast_S_S2x2 main_cst_10
  let main_v31 : IVec S2x2 1 := cmpf .olt main_v29 main_v30
  let main_c_11 : IVec S_ 1 := constantI S_ 1 1#1
  let main_v32 : IVec S_ 1 := (fun x v => Host.reduce IntOp.andi x v reducesTo_S2x2_S_d0_1 h_S_) main_v31 main_c_11
  let main_v33 : IVec S_ 1 := andi main_v28 main_v32
  fn_part2 (F := F) main_arg2 main_arg8 main_v33

def fn {F : FTy → Type} [FloatOps F] (main_arg0 : FVec F S100000x2 .f32) (main_arg1 : FVec F S3200000x2 .f32) (main_arg2 : IVec S2x3200000 32) (main_arg3 : FVec F S2x10 .f32) (main_arg4 : FVec F S10 .f32) (main_arg5 : FVec F S14x10 .f32) (main_arg6 : FVec F S10 .f32) (main_arg7 : FVec F S2x2 .f32) (main_arg8 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S3200000x2 .f32 := Host.absf main_arg1
  let main_cst_0 : FVec F S_ .f32 := constant S_ .f32 0x7F800000#32
  let main_v5 : FVec F S3200000x2 .f32 := broadcastInDim S3200000x2 ![] bcast_S_S3200000x2 main_cst_0
  let main_v6 : IVec S3200000x2 1 := cmpf .olt main_v4 main_v5
  let main_c_1 : IVec S_ 1 := constantI S_ 1 1#1
  let main_v7 : IVec S_ 1 := (fun x v => Host.reduce IntOp.andi x v reducesTo_S3200000x2_S_d0_1 h_S_) main_v6 main_c_1
  let main_v8 : IVec S_ 1 := andi main_v3 main_v7
  let main_v9 : FVec F S2x10 .f32 := Host.absf main_arg3
  let main_cst_2 : FVec F S_ .f32 := constant S_ .f32 0x7F800000#32
  let main_v10 : FVec F S2x10 .f32 := broadcastInDim S2x10 ![] bcast_S_S2x10 main_cst_2
  let main_v11 : IVec S2x10 1 := cmpf .olt main_v9 main_v10
  let main_c_3 : IVec S_ 1 := constantI S_ 1 1#1
  let main_v12 : IVec S_ 1 := (fun x v => Host.reduce IntOp.andi x v reducesTo_S2x10_S_d0_1 h_S_) main_v11 main_c_3
  let main_v13 : IVec S_ 1 := andi main_v8 main_v12
  let main_v14 : FVec F S10 .f32 := Host.absf main_arg4
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg2 main_arg5 main_arg6 main_arg7 main_arg8 main_v13 main_v16
-- ==== Kernel.lean ====
abbrev S100000x2 : Shape := ⟨2, ![100000, 2]⟩
abbrev S3200000x2 : Shape := ⟨2, ![3200000, 2]⟩
abbrev S2x3200000 : Shape := ⟨2, ![2, 3200000]⟩
abbrev S2x10 : Shape := ⟨2, ![2, 10]⟩
abbrev S10 : Shape := ⟨1, ![10]⟩
abbrev S14x10 : Shape := ⟨2, ![14, 10]⟩
abbrev S2x2 : Shape := ⟨2, ![2, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S10x10 : Shape := ⟨2, ![10, 10]⟩
abbrev S3200000x10 : Shape := ⟨2, ![3200000, 10]⟩
abbrev S4000x2 : Shape := ⟨2, ![4000, 2]⟩
abbrev S4000x10 : Shape := ⟨2, ![4000, 10]⟩
abbrev S1x10 : Shape := ⟨2, ![1, 10]⟩
abbrev S1x2 : Shape := ⟨2, ![1, 2]⟩

abbrev nBuf : Space → Nat
  | .hbm => 64
  | .vmem => 20
  | .smem => 0
  | _ => 0

abbrev bufTy : (tb : Table) → Fin (tcTables nBuf tb) → BufTy
  | .hbm, ⟨0, _⟩ => ⟨S100000x2, .f32⟩
  | .hbm, ⟨1, _⟩ => ⟨S3200000x2, .f32⟩
  | .hbm, ⟨2, _⟩ => ⟨S2x3200000, .i32⟩
  | .hbm, ⟨3, _⟩ => ⟨S2x10, .f32⟩
  | .hbm, ⟨4, _⟩ => ⟨S10, .f32⟩
  | .hbm, ⟨5, _⟩ => ⟨S14x10, .f32⟩
  | .hbm, ⟨6, _⟩ => ⟨S10, .f32⟩
  | .hbm, ⟨7, _⟩ => ⟨S2x2, .f32⟩
  | .hbm, ⟨8, _⟩ => ⟨S2, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S1, .i32⟩
  | .hbm, ⟨22, _⟩ => ⟨S_, .i32⟩
  | .hbm, ⟨23, _⟩ => ⟨S3200000x1, .i32⟩
  | .hbm, ⟨24, _⟩ => ⟨S3200000x1, .i1⟩
  | .hbm, ⟨25, _⟩ => ⟨S1x1, .i32⟩
  | .hbm, ⟨26, _⟩ => ⟨S3200000x1, .i32⟩
  | .hbm, ⟨27, _⟩ => ⟨S3200000x1, .i1⟩
  | .hbm, ⟨28, _⟩ => ⟨S3200000x1, .i1⟩
  | .hbm, ⟨29, _⟩ => ⟨S_, .i1⟩
  | .hbm, ⟨30, _⟩ => ⟨S3200000, .i1⟩
  | .hbm, ⟨31, _⟩ => ⟨S3200000x2, .f32⟩
  | .hbm, ⟨32, _⟩ => ⟨S3200000x2, .i1⟩
  | .hbm, ⟨33, _⟩ => ⟨S_, .f32⟩
  | .hbm, ⟨34, _⟩ => ⟨S3200000x2, .f32⟩
  | .hbm, ⟨35, _⟩ => ⟨S3200000x2, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S1, .i32⟩
  | .hbm, ⟨45, _⟩ => ⟨S_, .i32⟩
  | .hbm, ⟨46, _⟩ => ⟨S3200000x1, .i32⟩
  | .hbm, ⟨47, _⟩ => ⟨S3200000x1, .i1⟩
  | .hbm, ⟨48, _⟩ => ⟨S1x1, .i32⟩
  | .hbm, ⟨49, _⟩ => ⟨S3200000x1, .i32⟩
  | .hbm, ⟨50, _⟩ => ⟨S3200000x1, .i1⟩
  | .hbm, ⟨51, _⟩ => ⟨S3200000x1, .i1⟩
  | .hbm, ⟨52, _⟩ => ⟨S_, .i1⟩
  | .hbm, ⟨53, _⟩ => ⟨S3200000, .i1⟩
  | .hbm, ⟨54, _⟩ => ⟨S3200000x2, .f32⟩
  | .hbm, ⟨55, _⟩ => ⟨S3200000x2, .i1⟩
  | .hbm, ⟨56, _⟩ => ⟨S_, .f32⟩
  | .hbm, ⟨57, _⟩ => ⟨S3200000x2, .f32⟩
  | .hbm, ⟨58, _⟩ => ⟨S3200000x2, .f32⟩
  | .hbm, ⟨59, _⟩ => ⟨S10x10, .f32⟩
  | .hbm, ⟨60, _⟩ => ⟨S2x10, .f32⟩
  | .hbm, ⟨61, _⟩ => ⟨S2x10, .f32⟩
  | .hbm, ⟨62, _⟩ => ⟨S3200000x10, .f32⟩
  | .hbm, ⟨63, _⟩ => ⟨S100000x2, .f32⟩
  | .local _ .vmem, ⟨0, _⟩ => ⟨S4000x2, .f32⟩
  | .local _ .vmem, ⟨1, _⟩ => ⟨S4000x2, .f32⟩
  | .local _ .vmem, ⟨2, _⟩ => ⟨S4000x2, .f32⟩
  | .local _ .vmem, ⟨3, _⟩ => ⟨S4000x2, .f32⟩
  | .local _ .vmem, ⟨4, _⟩ => ⟨S4000x2, .f32⟩
  | .local _ .vmem, ⟨5, _⟩ => ⟨S4000x2, .f32⟩
  | .local _ .vmem, ⟨6, _⟩ => ⟨S2x10, .f32⟩
  | .local _ .vmem, ⟨7, _⟩ => ⟨S10, .f32⟩
  | .local _ .vmem, ⟨8, _⟩ => ⟨S10x10, .f32⟩
  | .local _ .vmem, ⟨9, _⟩ => ⟨S2x10, .f32⟩
  | .local _ .vmem, ⟨10, _⟩ => ⟨S2x10, .f32⟩
  | .local _ .vmem, ⟨11, _⟩ => ⟨S10, .f32⟩
  | .local _ .vmem, ⟨12, _⟩ => ⟨S4000x10, .f32⟩
  | .local _ .vmem, ⟨13, _⟩ => ⟨S4000x10, .f32⟩
  | .local _ .vmem, ⟨14, _⟩ => ⟨S4000x2, .f32⟩
  | .local _ .vmem, ⟨15, _⟩ => ⟨S4000x2, .f32⟩
  | .local _ .vmem, ⟨16, _⟩ => ⟨S2x2, .f32⟩
  | .local _ .vmem, ⟨17, _⟩ => ⟨S2, .f32⟩
  | .local _ .vmem, ⟨18, _⟩ => ⟨S4000x2, .f32⟩
  | .local _ .vmem, ⟨19, _⟩ => ⟨S4000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x2_0 : S3200000.BroadcastsInDim S3200000x2 (![0] : Fin 1 → Fin S3200000x2.rank)
  bcast_S_S3200000x2 : S_.BroadcastsInDim S3200000x2 (![] : Fin 0 → Fin S3200000x2.rank)
  slices_S14x10_S10x10_0_0 : S14x10.Slices ![0, 0] S10x10
  slices_S14x10_S2x10_10_0 : S14x10.Slices ![10, 0] S2x10
  slices_S14x10_S2x10_12_0 : S14x10.Slices ![12, 0] S2x10
  inb_S4000x2_S4000x2_0_0 : ∀ a, (![0, 0] : Fin 2 → Nat) a + S4000x2.size a ≤ S4000x2.size a
  h_S4000x2 : 0 < S4000x2.numel
  bitsLt_bf16_f32 : FTy.bits .bf16 < FTy.bits .f32
  inb_S2x10_S2x10_0_0 : ∀ a, (![0, 0] : Fin 2 → Nat) a + S2x10.size a ≤ S2x10.size a
  h_S2x10 : 0 < S2x10.numel
  inb_S10_S10_0 : ∀ a, (![0] : Fin 1 → Nat) a + S10.size a ≤ S10.size a
  h_S10 : 0 < S10.numel
  shapeCasts_S10_S1x10 : S10.ShapeCasts S1x10
  broadcasts_S1x10_S4000x10 : S1x10.Broadcasts S4000x10
  inb_S10x10_S10x10_0_0 : ∀ a, (![0, 0] : Fin 2 → Nat) a + S10x10.size a ≤ S10x10.size a
  h_S10x10 : 0 < S10x10.numel
  shapeCasts_S10x10_S10x10 : S10x10.ShapeCasts S10x10
  shapeCasts_S4000x2_S4000x2 : S4000x2.ShapeCasts S4000x2
  shapeCasts_S2x10_S2x10 : S2x10.ShapeCasts S2x10
  inb_S4000x10_S4000x10_0_0 : ∀ a, (![0, 0] : Fin 2 → Nat) a + S4000x10.size a ≤ S4000x10.size a
  h_S4000x10 : 0 < S4000x10.numel
  inb_S2x2_S2x2_0_0 : ∀ a, (![0, 0] : Fin 2 → Nat) a + S2x2.size a ≤ S2x2.size a
  h_S2x2 : 0 < S2x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  gather_S100000x2_S3200000x1_S3200000x2_1_0_n_n_0_1_12_wf : GatherDims.WF S100000x2 S3200000x1 S3200000x2 [1] [0] [] [0] [] 1 ![1, 2]
  dot_S4000x2_S2x10_S4000x10_1_0_0_1_n_n_wf : DotDims.WF S4000x2 S2x10 S4000x10 [1] [0] [0] [1] [] []
  dot_S4000x10_S10x10_S4000x10_1_0_0_1_n_n_wf : DotDims.WF S4000x10 S10x10 S4000x10 [1] [0] [0] [1] [] []
  dot_S4000x2_S2x2_S4000x2_1_0_0_1_n_n_wf : DotDims.WF S4000x2 S2x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S3200000x2.size a
  hwx0_0 : ∀ i : grid0.Coords, EltTy.bits .f32 = 32 ∨ (Rect.block (s := S3200000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S3200000x2.size a
  hwx0_1 : ∀ i : grid0.Coords, EltTy.bits .f32 = 32 ∨ (Rect.block (s := S3200000x2) S4000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S3200000x2.size a
  hwx0_2 : ∀ i : grid0.Coords, EltTy.bits .f32 = 32 ∨ (Rect.block (s := S3200000x2) S4000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x10.size a ≤ S2x10.size a
  hwx0_3 : ∀ i : grid0.Coords, EltTy.bits .f32 = 32 ∨ (Rect.block (s := S2x10) S2x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x10.size a ≤ S2x10.size a
  hwx0_6 : ∀ i : grid0.Coords, EltTy.bits .f32 = 32 ∨ (Rect.block (s := S2x10) S2x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x10.size a ≤ S2x10.size a
  hwx0_7 : ∀ i : grid0.Coords, EltTy.bits .f32 = 32 ∨ (Rect.block (s := S2x10) S2x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10.size a ≤ S10.size a
  hwx0_8 : ∀ i : grid0.Coords, EltTy.bits .f32 = 32 ∨ (Rect.block (s := S10) S10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x10.size a ≤ S3200000x10.size a
  hwx0_9 : ∀ i : grid0.Coords, EltTy.bits .f32 = 32 ∨ (Rect.block (s := S3200000x10) S4000x10.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S100000x2.size a
  hwx1_0 : ∀ i : grid1.Coords, EltTy.bits .f32 = 32 ∨ (Rect.block (s := S100000x2) S4000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x2.size a ≤ S2x2.size a
  hwx1_1 : ∀ i : grid1.Coords, EltTy.bits .f32 = 32 ∨ (Rect.block (s := S2x2) S2x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2.size a ≤ S2.size a
  hwx1_2 : ∀ i : grid1.Coords, EltTy.bits .f32 = 32 ∨ (Rect.block (s := S2) S2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x2.size a ≤ S100000x2.size a
  hwx1_3 : ∀ i : grid1.Coords, EltTy.bits .f32 = 32 ∨ (Rect.block (s := S100000x2) S4000x2.size (cc1_transform_3 i) (hinb1_3 i)).WholeWords (EltTy.packing .f32)

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S4000x2_S2x10_S4000x10_1_0_0_1_n_n : DotDims S4000x2 S2x10 S4000x10 where
  lhsContracting := [1]
  rhsContracting := [0]
  lhsNonContracting := [0]
  rhsNonContracting := [1]
  lhsBatch := []
  rhsBatch := []
  wf := dot_S4000x2_S2x10_S4000x10_1_0_0_1_n_n_wf
def dot_S4000x10_S10x10_S4000x10_1_0_0_1_n_n : DotDims S4000x10 S10x10 S4000x10 where
  lhsContracting := [1]
  rhsContracting := [0]
  lhsNonContracting := [0]
  rhsNonContracting := [1]
  lhsBatch := []
  rhsBatch := []
  wf := dot_S4000x10_S10x10_S4000x10_1_0_0_1_n_n_wf
def dot_S4000x2_S2x2_S4000x2_1_0_0_1_n_n : DotDims S4000x2 S2x2 S4000x2 where
  lhsContracting := [1]
  rhsContracting := [0]
  lhsNonContracting := [0]
  rhsNonContracting := [1]
  lhsBatch := []
  rhsBatch := []
  wf := dot_S4000x2_S2x2_S4000x2_1_0_0_1_n_n_wf

abbrev win0_0 : Pipeline.Window sig grid0 :=
  Pipeline.Window.ofSpec (Memref.whole main_arg1) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S4000x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x2 : Shape := ⟨2, ![100000, 2]⟩
abbrev S3200000x2 : Shape := ⟨2, ![3200000, 2]⟩
abbrev S2x3200000 : Shape := ⟨2, ![2, 3200000]⟩
abbrev S2x10 : Shape := ⟨2, ![2, 10]⟩
abbrev S10 : Shape := ⟨1, ![10]⟩
abbrev S14x10 : Shape := ⟨2, ![14, 10]⟩
abbrev S2x2 : Shape := ⟨2, ![2, 2]⟩
abbrev S2 : Shape := ⟨1, ![2]⟩
abbrev S1x3200000 : Shape := ⟨2, ![1, 3200000]⟩
abbrev S3200000 : Shape := ⟨1, ![3200000]⟩
abbrev S3200000x10 : Shape := ⟨2, ![3200000, 10]⟩
abbrev S1x10 : Shape := ⟨2, ![1, 10]⟩
abbrev S_ : Shape := ⟨0, ![]⟩
abbrev S3200000x1 : Shape := ⟨2, ![3200000, 1]⟩
abbrev S3200000x14 : Shape := ⟨2, ![3200000, 14]⟩
abbrev S1x2 : Shape := ⟨2, ![1, 2]⟩

abbrev nBuf : Space → Nat
  | .hbm => 44
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S3200000x2, .f32⟩
  | .hbm, ⟨2, _⟩ => ⟨S2x3200000, .i32⟩
  | .hbm, ⟨3, _⟩ => ⟨S2x10, .f32⟩
  | .hbm, ⟨4, _⟩ => ⟨S10, .f32⟩
  | .hbm, ⟨5, _⟩ => ⟨S14x10, .f32⟩
  | .hbm, ⟨6, _⟩ => ⟨S10, .f32⟩
  | .hbm, ⟨7, _⟩ => ⟨S2x2, .f32⟩
  | .hbm, ⟨8, _⟩ => ⟨S2, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S3200000x10, .f32⟩
  | .hbm, ⟨14, _⟩ => ⟨S1x10, .f32⟩
  | .hbm, ⟨15, _⟩ => ⟨S3200000x10, .f32⟩
  | .hbm, ⟨16, _⟩ => ⟨S3200000x10, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x2, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x2, .f32⟩
  | .hbm, ⟨35, _⟩ => ⟨S3200000x14, .f32⟩
  | .hbm, ⟨36, _⟩ => ⟨S3200000x10, .f32⟩
  | .hbm, ⟨37, _⟩ => ⟨S1x10, .f32⟩
  | .hbm, ⟨38, _⟩ => ⟨S3200000x10, .f32⟩
  | .hbm, ⟨39, _⟩ => ⟨S3200000x10, .f32⟩
  | .hbm, ⟨40, _⟩ => ⟨S100000x2, .f32⟩
  | .hbm, ⟨41, _⟩ => ⟨S1x2, .f32⟩
  | .hbm, ⟨42, _⟩ => ⟨S100000x2, .f32⟩
  | .hbm, ⟨43, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S10_S1x10_1 : S10.BroadcastsInDim S1x10 (![1] : Fin 1 → Fin S1x10.rank)
  bcast_S1x10_S3200000x10_0_1 : S1x10.BroadcastsInDim S3200000x10 (![0, 1] : Fin 2 → Fin S3200000x10.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x10_S3200000x2_S3200000x2_S3200000x14_d1 : Shape.Concatenates [S3200000x10, S3200000x2, S3200000x2] S3200000x14 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S3200000x2_S2x10_S3200000x10_1_0_0_1_n_n_wf : DotDims.WF S3200000x2 S2x10 S3200000x10 [1] [0] [0] [1] [] []
  gather_S100000x2_S3200000x1_S3200000x2_1_0_n_n_0_1_12_wf : GatherDims.WF S100000x2 S3200000x1 S3200000x2 [1] [0] [] [0] [] 1 ![1, 2]
  dot_S3200000x14_S14x10_S3200000x10_1_0_0_1_n_n_wf : DotDims.WF S3200000x14 S14x10 S3200000x10 [1] [0] [0] [1] [] []
  dot_S100000x2_S2x2_S100000x2_1_0_0_1_n_n_wf : DotDims.WF S100000x2 S2x2 S100000x2 [1] [0] [0] [1] [] []

variable [Facts₀]

def dot_S3200000x2_S2x10_S3200000x10_1_0_0_1_n_n : DotDims S3200000x2 S2x10 S3200000x10 where
  lhsContracting := [1]
  rhsContracting := [0]
  lhsNonContracting := [0]
  rhsNonContracting := [1]
  lhsBatch := []
  rhsBatch := []
  wf := dot_S3200000x2_S2x10_S3200000x10_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S3200000x14_S14x10_S3200000x10_1_0_0_1_n_n : DotDims S3200000x14 S14x10 S3200000x10 where
  lhsContracting := [1]
  rhsContracting := [0]
  lhsNonContracting := [0]
  rhsNonContracting := [1]
  lhsBatch := []
  rhsBatch := []
  wf := dot_S3200000x14_S14x10_S3200000x10_1_0_0_1_n_n_wf
def dot_S100000x2_S2x2_S100000x2_1_0_0_1_n_n : DotDims S100000x2 S2x2 S100000x2 where
  lhsContracting := [1]
  rhsContracting := [0]
  lhsNonContracting := [0]
  rhsNonContracting := [1]
  lhsBatch := []
  rhsBatch := []
  wf := dot_S100000x2_S2x2_S100000x2_1_0_0_1_n_n_wf

class Facts : Prop extends Facts₀ where

variable [Facts]
-- ==== Proof.Spec.lean ====
/-
  The two results as functions of the argument arrays, index by index, over the extended reals.

  Node result: row `n` of the node table against the 2×2 weight, plus the bias,
      out[n, j] = Σ_{k<2} x[n, k] · Wn[k, j] + bn[j].
  Edge result: the hidden edge feature  hid[e, h] = Σ_{k<2} E[e, k] · We[k, h] + be[h]  (h < 10), then the update
  layer applied to the row  [hid[e, ·] | src[e, ·] | dst[e, ·]]  of length 14. Written with the 14×10 weight cut
  into its three row blocks (rows 0–9, 10–11, 12–13) it is
      msg[e, j] = Σ_{h<10} hid[e, h] · A[h, j] + Σ_{k<2} src[e, k] · B[k, j] + Σ_{k<2} dst[e, k] · C[k, j] + bu[j],
  and written against the joined row it is one sum over 14. The two agree because a sum over `Fin 14` is the sum
  over its first ten indices plus the next two plus the last two (`sum_fin14`): only that addition of extended
  reals is commutative and associative is used, so no finiteness is needed.
-/
import Idealize.ShloMosaic.PureOps.Ideal
import Idealize.ShloMosaic.Lib.ValueIdx

noncomputable section

namespace Cert.Spec

open Idealize.ShloMosaic Idealize.ShloMosaic.ValueIdx

/-- The node layer: `x · Wn + bn`, row by row. -/
def nodeLin (x : (⟨2, ![100000, 2]⟩ : Shape).Idx → EReal) (W : (⟨2, ![2, 2]⟩ : Shape).Idx → EReal)
    (b : (⟨1, ![2]⟩ : Shape).Idx → EReal) : (⟨2, ![100000, 2]⟩ : Shape).Idx → EReal :=
  fun i => (∑ k : Fin 2, x (ix2 (i 0) k) * W (ix2 k (i 1))) + b (ix1 (i 1))

/-- The hidden edge feature `E · We + be` at edge `e`, column `h`. -/
def edgeHidden (E : (⟨2, ![3200000, 2]⟩ : Shape).Idx → EReal) (We : (⟨2, ![2, 10]⟩ : Shape).Idx → EReal)
    (be : (⟨1, ![10]⟩ : Shape).Idx → EReal) (e : Fin 3200000) (h : Fin 10) : EReal :=
  (∑ k : Fin 2, E (ix2 e k) * We (ix2 k h)) + be (ix1 h)

/-- The edge update with the weight given as its three row blocks `A` (10×10), `B`, `C` (2×10 each). -/
def edgeMsg (E src dst : (⟨2, ![3200000, 2]⟩ : Shape).Idx → EReal) (We : (⟨2, ![2, 10]⟩ : Shape).Idx → EReal)
    (be : (⟨1, ![10]⟩ : Shape).Idx → EReal) (A : (⟨2, ![10, 10]⟩ : Shape).Idx → EReal)
    (B C : (⟨2, ![2, 10]⟩ : Shape).Idx → EReal) (bu : (⟨1, ![10]⟩ : Shape).Idx → EReal) :
    (⟨2, ![3200000, 10]⟩ : Shape).Idx → EReal :=
  fun i => (((∑ h : Fin 10, edgeHidden E We be (i 0) h * A (ix2 h (i 1)))
      + ∑ k : Fin 2, src (ix2 (i 0) k) * B (ix2 k (i 1)))
      + ∑ k : Fin 2, dst (ix2 (i 0) k) * C (ix2 k (i 1))) + bu (ix1 (i 1))

/-- Rows 0–9 of the 14×10 update weight: the block that meets the hidden edge feature. -/
def rowBlock10 (W : (⟨2, ![14, 10]⟩ : Shape).Idx → EReal) : (⟨2, ![10, 10]⟩ : Shape).Idx → EReal :=
  fun i => W (ix2 ⟨(i 0).val, by have h : (i 0).val < 10 := (i 0).isLt; omega⟩ (i 1))

/-- Rows `off`, `off + 1` of the 14×10 update weight: the block that meets an endpoint's two features. -/
def rowBlock2 (off : Nat) (hoff : off + 2 ≤ 14) (W : (⟨2, ![14, 10]⟩ : Shape).Idx → EReal) : (⟨2, ![2, 10]⟩ : Shape).Idx → EReal :=
  fun i => W (ix2 ⟨off + (i 0).val, by have h : (i 0).val < 2 := (i 0).isLt; omega⟩ (i 1))

/-- THE EDGE RESULT: the update layer with the whole 14×10 weight, its three row blocks meeting the hidden edge
    feature, the source row and the destination row. -/
def edgeOut (E src dst : (⟨2, ![3200000, 2]⟩ : Shape).Idx → EReal) (We : (⟨2, ![2, 10]⟩ : Shape).Idx → EReal)
    (be : (⟨1, ![10]⟩ : Shape).Idx → EReal) (Wu : (⟨2, ![14, 10]⟩ : Shape).Idx → EReal) (bu : (⟨1, ![10]⟩ : Shape).Idx → EReal) :
    (⟨2, ![3200000, 10]⟩ : Shape).Idx → EReal :=
  edgeMsg E src dst We be (rowBlock10 Wu) (rowBlock2 10 (by omega) Wu) (rowBlock2 12 (by omega) Wu) bu

/-- A sum over fourteen indices is the sum over the first ten, plus the next two, plus the last two. -/
theorem sum_fin14 {M : Type} [AddCommMonoid M] (f : Fin 14 → M) :
    ∑ k : Fin 14, f k
      = ((∑ h : Fin 10, f ⟨h.val, by omega⟩) + ∑ k : Fin 2, f ⟨10 + k.val, by omega⟩)
        + ∑ k : Fin 2, f ⟨12 + k.val, by omega⟩ := by
  have h1 : ∑ i : Fin (10 + 4), f i = ∑ i : Fin 10, f (Fin.castAdd 4 i) + ∑ i : Fin 4, f (Fin.natAdd 10 i) :=
    Fin.sum_univ_add (fun i : Fin (10 + 4) => f i)
  have h2 : ∑ i : Fin (2 + 2), f (Fin.natAdd 10 i)
      = ∑ i : Fin 2, f (Fin.natAdd 10 (Fin.castAdd 2 i)) + ∑ i : Fin 2, f (Fin.natAdd 10 (Fin.natAdd 2 i)) :=
    Fin.sum_univ_add (fun i : Fin (2 + 2) => f (Fin.natAdd 10 i))
  have e : ∑ k : Fin 14, f k = ∑ i : Fin 10, f (Fin.castAdd 4 i)
      + (∑ i : Fin 2, f (Fin.natAdd 10 (Fin.castAdd 2 i)) + ∑ i : Fin 2, f (Fin.natAdd 10 (Fin.natAdd 2 i))) :=
    h1.trans (congrArg _ h2)
  rw [e, ← add_assoc]
  refine congrArg₂ (· + ·) (congrArg₂ (· + ·) ?_ ?_) ?_
  · exact Finset.sum_congr rfl fun i _ => congrArg f (Fin.ext rfl)
  · exact Finset.sum_congr rfl fun i _ => congrArg f (Fin.ext rfl)
  · exact Finset.sum_congr rfl fun i _ => congrArg f (Fin.ext (by
      show 10 + (2 + i.val) = 12 + i.val
      omega))

end Cert.Spec

end
-- ==== Proof.NodeValue.lean ====
/-
  The node region: what its output array holds after the run.

  Each grid point `t` (25 of them) loads rows 4000·t … 4000·t + 3999 of the node table and the whole 2×2 weight
  and bias, and stores  x · Wn + bn  over those rows; the blocks tile the 100000 rows, so the array ends holding
  `Spec.nodeLin` of the three arrays as the region finds them.
-/
import proofs.«427230_j86612310491809_2_alg».proof.Proof.Gen.KernelIdeal.Frame
import proofs.«427230_j86612310491809_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem

/-! ## The body's arithmetic at an index -/

/-- The matmul's left operand is read at the output's row … -/
theorem lhs_row (i : S4000x2.Idx) (q : dot_S4000x2_S2x2_S4000x2_1_0_0_1_n_n.contr.Idx) :
    (dot_S4000x2_S2x2_S4000x2_1_0_0_1_n_n.lhsIdx i q 0).val = (i 0).val := by
  unfold DotDims.lhsIdx
  rw [dif_neg (show ¬(0 : Fin S4000x2.rank) ∈ dot_S4000x2_S2x2_S4000x2_1_0_0_1_n_n.lhsBatch by decide), dif_pos (show (0 : Fin S4000x2.rank) ∈ dot_S4000x2_S2x2_S4000x2_1_0_0_1_n_n.lhsNonContracting by decide)]
  rfl
/-- … and the contracted column; -/
theorem lhs_col (i : S4000x2.Idx) (q : dot_S4000x2_S2x2_S4000x2_1_0_0_1_n_n.contr.Idx) :
    (dot_S4000x2_S2x2_S4000x2_1_0_0_1_n_n.lhsIdx i q 1).val = (q ⟨0, by decide⟩).val :=
  dot_S4000x2_S2x2_S4000x2_1_0_0_1_n_n.lhsIdx_val_of_single rfl i q
/-- the right operand at the contracted row … -/
theorem rhs_row (i : S4000x2.Idx) (q : dot_S4000x2_S2x2_S4000x2_1_0_0_1_n_n.contr.Idx) :
    (dot_S4000x2_S2x2_S4000x2_1_0_0_1_n_n.rhsIdx i q 0).val = (q ⟨0, by decide⟩).val :=
  dot_S4000x2_S2x2_S4000x2_1_0_0_1_n_n.rhsIdx_val_of_single rfl i q
/-- … and the output's column. -/
theorem rhs_col (i : S4000x2.Idx) (q : dot_S4000x2_S2x2_S4000x2_1_0_0_1_n_n.contr.Idx) :
    (dot_S4000x2_S2x2_S4000x2_1_0_0_1_n_n.rhsIdx i q 1).val = (i 1).val := by
  unfold DotDims.rhsIdx
  rw [dif_neg (show ¬(1 : Fin S2x2.rank) ∈ dot_S4000x2_S2x2_S4000x2_1_0_0_1_n_n.rhsBatch by decide), dif_pos (show (1 : Fin S2x2.rank) ∈ dot_S4000x2_S2x2_S4000x2_1_0_0_1_n_n.rhsNonContracting by decide)]
  rfl

/-- The block product into a zero accumulator, at row `p` and column `q`: the sum over the two contracted
    positions. -/
theorem matmul_apply (l : FVec Ideal S4000x2 .bf16) (r : FVec Ideal S2x2 .bf16) (p : Fin 4000) (q : Fin 2) :
    matmul dot_S4000x2_S2x2_S4000x2_1_0_0_1_n_n none l r (constant (F := Ideal) S4000x2 .f32 0x00000000#32) (ix2 p q)
      = ∑ k : Fin 2, l (ix2 p k) * r (ix2 k q) := by
  show FloatOps.matmul dot_S4000x2_S2x2_S4000x2_1_0_0_1_n_n none l r (constant (F := Ideal) S4000x2 .f32 0x00000000#32) (ix2 p q) = _
  rw [Ideal.matmul_constant_zero_apply, ← Equiv.sum_comp (contrEquiv1 dot_S4000x2_S2x2_S4000x2_1_0_0_1_n_n 2 rfl rfl).symm]
  refine Finset.sum_congr rfl fun k _ => ?_
  have hk := contrEquiv1_symm_val dot_S4000x2_S2x2_S4000x2_1_0_0_1_n_n 2 rfl rfl k
  have el : dot_S4000x2_S2x2_S4000x2_1_0_0_1_n_n.lhsIdx (ix2 p q) ((contrEquiv1 dot_S4000x2_S2x2_S4000x2_1_0_0_1_n_n 2 rfl rfl).symm k) = ix2 p k := funext fun a => Fin.ext (by
    match a with
    | ⟨0, _⟩ => exact lhs_row _ _
    | ⟨1, _⟩ => exact (lhs_col _ _).trans hk)
  have er : dot_S4000x2_S2x2_S4000x2_1_0_0_1_n_n.rhsIdx (ix2 p q) ((contrEquiv1 dot_S4000x2_S2x2_S4000x2_1_0_0_1_n_n 2 rfl rfl).symm k) = ix2 k q := funext fun a => Fin.ext (by
    match a with
    | ⟨0, _⟩ => exact (rhs_row _ _).trans hk
    | ⟨1, _⟩ => exact rhs_col _ _)
  rw [el, er]

/-- The stored value at row `p`, column `q` of the block: the row of the loaded node block against the weight's
    column, plus the bias entry (the narrowing to bf16 before the product is the identity on extended reals). -/
theorem pay_apply (x0 : Vec Ideal S4000x2 .f32) (x1 : Vec Ideal S2x2 .f32) (x2 : Vec Ideal S2 .f32) (p : Fin 4000) (q : Fin 2) :
    k1_pay1 (F := Ideal) x0 x1 x2 (ix2 p q) = (∑ k : Fin 2, x0 (ix2 p k) * x1 (ix2 k q)) + x2 (ix1 q) := by
  unfold k1_pay1
  refine (addf_apply _ _ _).trans ?_
  refine congrArg₂ (· + ·) ?_ ?_
  · exact matmul_apply _ _ p q
  · exact (broadcastTo_1b_ab_apply _ _ p q).trans (shapeCast_a_1a_apply _ _ 0 q)

/-! ## From blocks to the array -/

theorem hz : (![0, 0] : Fin 2 → Nat) = fun _ => 0 := funext fun a => by fin_cases a <;> rfl
theorem hz1 : (![0] : Fin 1 → Nat) = fun _ => 0 := funext fun a => by fin_cases a <;> rfl

/-- The printed index maps over the 25 points: the node block and the output block are block `t` of their arrays,
    the weight and the bias are always their one block. -/
theorem idx_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0 ∧ win1_2.index t (0 : Fin 1) = 0 :=
  (by decide +kernel : ∀ t : Fin grid1.N, _)

theorem t_lt (t : Fin cfg1.N) : t.val < 25 := by
  have h := t.isLt
  have hN : cfg1.N = 25 := N_1
  omega

/-- Row `p` of block `t` is row `4000·t + p` of the table. -/
def row (t : Fin cfg1.N) (p : Fin 4000) : Fin 100000 := ⟨t.val * 4000 + p.val, by have := t_lt t; have := p.isLt; omega⟩

theorem emb_in (t : Fin cfg1.N) (p : Fin 4000) (k : Fin 2) : ((cfg1.win 0).blk t).view.emb (ix2 p k) = ix2 (row t p) k := by
  obtain ⟨e0, e1, e2, e3, e4, e5, e6⟩ := idx_facts t
  funext a; apply Fin.ext
  match a with
  | ⟨0, _⟩ => show win1_0.index t (0 : Fin 2) * 4000 + 1 * p.val = t.val * 4000 + p.val; rw [e0]; omega
  | ⟨1, _⟩ => show win1_0.index t (1 : Fin 2) * 2 + 1 * k.val = k.val; rw [e1]; omega

theorem emb_out (t : Fin cfg1.N) (p : Fin 4000) (q : Fin 2) : ((cfg1.win 3).blk t).view.emb (ix2 p q) = ix2 (row t p) q := by
  obtain ⟨e0, e1, e2, e3, e4, e5, e6⟩ := idx_facts t
  funext a; apply Fin.ext
  match a with
  | ⟨0, _⟩ => show win1_3.index t (0 : Fin 2) * 4000 + 1 * p.val = t.val * 4000 + p.val; rw [e2]; omega
  | ⟨1, _⟩ => show win1_3.index t (1 : Fin 2) * 2 + 1 * q.val = q.val; rw [e3]; omega

theorem emb_w (t : Fin cfg1.N) (k q : Fin 2) : ((cfg1.win 1).blk t).view.emb (ix2 k q) = ix2 k q := by
  obtain ⟨e0, e1, e2, e3, e4, e5, e6⟩ := idx_facts t
  funext a; apply Fin.ext
  match a with
  | ⟨0, _⟩ => show win1_1.index t (0 : Fin 2) * 2 + 1 * k.val = k.val; rw [e4]; omega
  | ⟨1, _⟩ => show win1_1.index t (1 : Fin 2) * 2 + 1 * q.val = q.val; rw [e5]; omega

theorem emb_b (t : Fin cfg1.N) (q : Fin 2) : ((cfg1.win 2).blk t).view.emb (ix1 q) = ix1 q := by
  obtain ⟨e0, e1, e2, e3, e4, e5, e6⟩ := idx_facts t
  funext a; apply Fin.ext
  match a with
  | ⟨0, _⟩ => show win1_2.index t (0 : Fin 1) * 2 + 1 * q.val = q.val; rw [e6]; omega

variable (V : (c : Dev nD) → (b : Ref sig .tc) → Buf (Elt Ideal) ((c : Thread nD τ).loc b))

/-- The three blocks a point loads, read where they lie in their arrays. -/
theorem blk_in (c : Dev nD) (t : Fin cfg1.N) (p : Fin 4000) (k : Fin 2) :
    iblk1 V c 0 t (ix2 p k) = V c main_arg0 (ix2 (row t p) k) :=
  congrArg (V c main_arg0) (emb_in t p k)
theorem blk_w (c : Dev nD) (t : Fin cfg1.N) (k q : Fin 2) :
    iblk1 V c 1 t (ix2 k q) = V c main_arg7 (ix2 k q) :=
  congrArg (V c main_arg7) (emb_w t k q)
theorem blk_b (c : Dev nD) (t : Fin cfg1.N) (q : Fin 2) :
    iblk1 V c 2 t (ix1 q) = V c main_arg8 (ix1 q) :=
  congrArg (V c main_arg8) (emb_b t q)

/-- What point `t` writes back is block `t` of the node layer of the arrays as the region finds them. -/
theorem flushed_eq (c : Dev nD) (t : Fin cfg1.N) :
    (dat1 V c).flushed 3 t = ((cfg1.win 3).blk t).view.read (Elt Ideal) (Spec.nodeLin (V c main_arg0) (V c main_arg7) (V c main_arg8)) := by
  show (cfg1.win 3).cut (grid1.coords t) ((dat1 V c).after 3 t) = _
  rw [after1_3]
  unfold out1_3
  rw [View.canon_unit_zero hz]
  simp only [View.ld_unit_zero (S := S4000x2) hz, View.ld_unit_zero (S := S2x2) hz, View.ld_unit_zero (S := S2) hz1]
  funext j
  obtain ⟨p, q, rfl⟩ : ∃ (p : Fin 4000) (q : Fin 2), j = ix2 p q := ⟨j 0, j 1, eq_ix2 j⟩
  refine (pay_apply (iblk1 V c 0 t) (iblk1 V c 1 t) (iblk1 V c 2 t) p q).trans ?_
  refine Eq.trans ?_ (congrArg (Spec.nodeLin (V c main_arg0) (V c main_arg7) (V c main_arg8)) (emb_out t p q).symm)
  exact congrArg₂ (· + ·) (Finset.sum_congr rfl fun k _ => congrArg₂ (· * ·) (blk_in V c t p k) (blk_w V c t k q)) (blk_b V c t q)

/-- An index of the array is in point `t`'s block iff each coordinate is in the block's range on its axis. -/
theorem mem_blk (t : Fin cfg1.N) (i : S100000x2.Idx) :
    i ∈ ((cfg1.win 3).blk t).view.set ↔ ∀ a : Fin 2, win1_3.index t a * S4000x2.size a ≤ (i a).val ∧ (i a).val < win1_3.index t a * S4000x2.size a + S4000x2.size a := by
  show i ∈ ((View.whole main_v10).slice (win1_3.rect t)).set ↔ _
  rw [View.set_slice_whole, Rect.mem_set_unit]
  exact Iff.rfl

/-- Every row lies in the block of the point `row / 4000`, which is written back. -/
theorem cover (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  have hN : cfg1.N = 25 := N_1
  have ht : (i 0).val / 4000 < cfg1.N := by rw [hN]; omega
  refine ⟨⟨(i 0).val / 4000, ht⟩, flush1_3 _, ?_⟩
  rw [mem_blk]
  obtain ⟨e0, e1, e2, e3, e4, e5, e6⟩ := idx_facts ⟨(i 0).val / 4000, ht⟩
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e2]
    show (i 0).val / 4000 * 4000 ≤ (i 0).val ∧ (i 0).val < (i 0).val / 4000 * 4000 + 4000
    omega
  | ⟨1, _⟩ =>
    show win1_3.index ⟨(i 0).val / 4000, ht⟩ (1 : Fin 2) * 2 ≤ (i 1).val ∧ (i 1).val < win1_3.index ⟨(i 0).val / 4000, ht⟩ (1 : Fin 2) * 2 + 2
    rw [e3]
    omega

/-- THE NODE RESULT after the run: the node layer of the table, the weight and the bias as the region finds them. -/
theorem final (c : Dev nD) :
    (dat1 V c).arrAt 3 cfg1.N = Spec.nodeLin (V c main_arg0) (V c main_arg7) (V c main_arg8) :=
  (dat1 V c).arrAt_eq_of_cover 3 _ (fun t _ => flushed_eq V c t) cover

end Cert.KernelIdeal.NodeValue

end
-- ==== Proof.EdgeValue.lean ====
/-
  The edge region: what its output array holds after the run.

  Each grid point `t` (800 of them) loads rows 4000·t … 4000·t + 3999 of the edge features and of the two gathered
  endpoint tables, the whole first-layer weight and bias, the three row blocks of the update weight and its bias,
  and stores over those rows
      (E · We + be) · A + src · B + dst · C + bu.
  The blocks tile the 3200000 rows, so the array ends holding `Spec.edgeMsg` of the nine arrays as the region
  finds them.
-/
import proofs.«427230_j86612310491809_2_alg».proof.Proof.Gen.KernelIdeal.Frame
import proofs.«427230_j86612310491809_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem

/-! ## The body's arithmetic at an index

Which operand coordinates each of the two block products reads (rows × contracted, contracted × columns). -/

theorem thin_lhs_row (i : S4000x10.Idx) (q : dot_S4000x2_S2x10_S4000x10_1_0_0_1_n_n.contr.Idx) :
    (dot_S4000x2_S2x10_S4000x10_1_0_0_1_n_n.lhsIdx i q 0).val = (i 0).val := by
  unfold DotDims.lhsIdx
  rw [dif_neg (show ¬(0 : Fin S4000x2.rank) ∈ dot_S4000x2_S2x10_S4000x10_1_0_0_1_n_n.lhsBatch by decide), dif_pos (show (0 : Fin S4000x2.rank) ∈ dot_S4000x2_S2x10_S4000x10_1_0_0_1_n_n.lhsNonContracting by decide)]
  rfl
theorem thin_lhs_col (i : S4000x10.Idx) (q : dot_S4000x2_S2x10_S4000x10_1_0_0_1_n_n.contr.Idx) :
    (dot_S4000x2_S2x10_S4000x10_1_0_0_1_n_n.lhsIdx i q 1).val = (q ⟨0, by decide⟩).val :=
  dot_S4000x2_S2x10_S4000x10_1_0_0_1_n_n.lhsIdx_val_of_single rfl i q
theorem thin_rhs_row (i : S4000x10.Idx) (q : dot_S4000x2_S2x10_S4000x10_1_0_0_1_n_n.contr.Idx) :
    (dot_S4000x2_S2x10_S4000x10_1_0_0_1_n_n.rhsIdx i q 0).val = (q ⟨0, by decide⟩).val :=
  dot_S4000x2_S2x10_S4000x10_1_0_0_1_n_n.rhsIdx_val_of_single rfl i q
theorem thin_rhs_col (i : S4000x10.Idx) (q : dot_S4000x2_S2x10_S4000x10_1_0_0_1_n_n.contr.Idx) :
    (dot_S4000x2_S2x10_S4000x10_1_0_0_1_n_n.rhsIdx i q 1).val = (i 1).val := by
  unfold DotDims.rhsIdx
  rw [dif_neg (show ¬(1 : Fin S2x10.rank) ∈ dot_S4000x2_S2x10_S4000x10_1_0_0_1_n_n.rhsBatch by decide), dif_pos (show (1 : Fin S2x10.rank) ∈ dot_S4000x2_S2x10_S4000x10_1_0_0_1_n_n.rhsNonContracting by decide)]
  rfl

theorem wide_lhs_row (i : S4000x10.Idx) (q : dot_S4000x10_S10x10_S4000x10_1_0_0_1_n_n.contr.Idx) :
    (dot_S4000x10_S10x10_S4000x10_1_0_0_1_n_n.lhsIdx i q 0).val = (i 0).val := by
  unfold DotDims.lhsIdx
  rw [dif_neg (show ¬(0 : Fin S4000x10.rank) ∈ dot_S4000x10_S10x10_S4000x10_1_0_0_1_n_n.lhsBatch by decide), dif_pos (show (0 : Fin S4000x10.rank) ∈ dot_S4000x10_S10x10_S4000x10_1_0_0_1_n_n.lhsNonContracting by decide)]
  rfl
theorem wide_lhs_col (i : S4000x10.Idx) (q : dot_S4000x10_S10x10_S4000x10_1_0_0_1_n_n.contr.Idx) :
    (dot_S4000x10_S10x10_S4000x10_1_0_0_1_n_n.lhsIdx i q 1).val = (q ⟨0, by decide⟩).val :=
  dot_S4000x10_S10x10_S4000x10_1_0_0_1_n_n.lhsIdx_val_of_single rfl i q
theorem wide_rhs_row (i : S4000x10.Idx) (q : dot_S4000x10_S10x10_S4000x10_1_0_0_1_n_n.contr.Idx) :
    (dot_S4000x10_S10x10_S4000x10_1_0_0_1_n_n.rhsIdx i q 0).val = (q ⟨0, by decide⟩).val :=
  dot_S4000x10_S10x10_S4000x10_1_0_0_1_n_n.rhsIdx_val_of_single rfl i q
theorem wide_rhs_col (i : S4000x10.Idx) (q : dot_S4000x10_S10x10_S4000x10_1_0_0_1_n_n.contr.Idx) :
    (dot_S4000x10_S10x10_S4000x10_1_0_0_1_n_n.rhsIdx i q 1).val = (i 1).val := by
  unfold DotDims.rhsIdx
  rw [dif_neg (show ¬(1 : Fin S10x10.rank) ∈ dot_S4000x10_S10x10_S4000x10_1_0_0_1_n_n.rhsBatch by decide), dif_pos (show (1 : Fin S10x10.rank) ∈ dot_S4000x10_S10x10_S4000x10_1_0_0_1_n_n.rhsNonContracting by decide)]
  rfl

/-- A 4000×2 block against a 2×10 weight into a zero accumulator: the sum over the two contracted positions. -/
theorem thin_apply (l : FVec Ideal S4000x2 .bf16) (r : FVec Ideal S2x10 .bf16) (p : Fin 4000) (q : Fin 10) :
    matmul dot_S4000x2_S2x10_S4000x10_1_0_0_1_n_n none l r (constant (F := Ideal) S4000x10 .f32 0x00000000#32) (ix2 p q)
      = ∑ k : Fin 2, l (ix2 p k) * r (ix2 k q) := by
  show FloatOps.matmul dot_S4000x2_S2x10_S4000x10_1_0_0_1_n_n none l r (constant (F := Ideal) S4000x10 .f32 0x00000000#32) (ix2 p q) = _
  rw [Ideal.matmul_constant_zero_apply, ← Equiv.sum_comp (contrEquiv1 dot_S4000x2_S2x10_S4000x10_1_0_0_1_n_n 2 rfl rfl).symm]
  refine Finset.sum_congr rfl fun k _ => ?_
  have hk := contrEquiv1_symm_val dot_S4000x2_S2x10_S4000x10_1_0_0_1_n_n 2 rfl rfl k
  have el : dot_S4000x2_S2x10_S4000x10_1_0_0_1_n_n.lhsIdx (ix2 p q) ((contrEquiv1 dot_S4000x2_S2x10_S4000x10_1_0_0_1_n_n 2 rfl rfl).symm k) = ix2 p k := funext fun a => Fin.ext (by
    match a with
    | ⟨0, _⟩ => exact thin_lhs_row _ _
    | ⟨1, _⟩ => exact (thin_lhs_col _ _).trans hk)
  have er : dot_S4000x2_S2x10_S4000x10_1_0_0_1_n_n.rhsIdx (ix2 p q) ((contrEquiv1 dot_S4000x2_S2x10_S4000x10_1_0_0_1_n_n 2 rfl rfl).symm k) = ix2 k q := funext fun a => Fin.ext (by
    match a with
    | ⟨0, _⟩ => exact (thin_rhs_row _ _).trans hk
    | ⟨1, _⟩ => exact thin_rhs_col _ _)
  rw [el, er]

/-- The 4000×10 hidden block against the 10×10 weight block into a zero accumulator: the sum over the ten hidden columns. -/
theorem wide_apply (l : FVec Ideal S4000x10 .bf16) (r : FVec Ideal S10x10 .bf16) (p : Fin 4000) (q : Fin 10) :
    matmul dot_S4000x10_S10x10_S4000x10_1_0_0_1_n_n none l r (constant (F := Ideal) S4000x10 .f32 0x00000000#32) (ix2 p q)
      = ∑ k : Fin 10, l (ix2 p k) * r (ix2 k q) := by
  show FloatOps.matmul dot_S4000x10_S10x10_S4000x10_1_0_0_1_n_n none l r (constant (F := Ideal) S4000x10 .f32 0x00000000#32) (ix2 p q) = _
  rw [Ideal.matmul_constant_zero_apply, ← Equiv.sum_comp (contrEquiv1 dot_S4000x10_S10x10_S4000x10_1_0_0_1_n_n 10 rfl rfl).symm]
  refine Finset.sum_congr rfl fun k _ => ?_
  have hk := contrEquiv1_symm_val dot_S4000x10_S10x10_S4000x10_1_0_0_1_n_n 10 rfl rfl k
  have el : dot_S4000x10_S10x10_S4000x10_1_0_0_1_n_n.lhsIdx (ix2 p q) ((contrEquiv1 dot_S4000x10_S10x10_S4000x10_1_0_0_1_n_n 10 rfl rfl).symm k) = ix2 p k := funext fun a => Fin.ext (by
    match a with
    | ⟨0, _⟩ => exact wide_lhs_row _ _
    | ⟨1, _⟩ => exact (wide_lhs_col _ _).trans hk)
  have er : dot_S4000x10_S10x10_S4000x10_1_0_0_1_n_n.rhsIdx (ix2 p q) ((contrEquiv1 dot_S4000x10_S10x10_S4000x10_1_0_0_1_n_n 10 rfl rfl).symm k) = ix2 k q := funext fun a => Fin.ext (by
    match a with
    | ⟨0, _⟩ => exact (wide_rhs_row _ _).trans hk
    | ⟨1, _⟩ => exact wide_rhs_col _ _)
  rw [el, er]

/-- The stored value at row `p`, column `j` of the block (narrowing to bf16 before each product is the identity on
    extended reals; the three same-shape casts are the identity). -/
theorem pay_apply (E : Vec Ideal S4000x2 .f32) (We : Vec Ideal S2x10 .f32) (be : Vec Ideal S10 .f32) (A : Vec Ideal S10x10 .f32)
    (src : Vec Ideal S4000x2 .f32) (B : Vec Ideal S2x10 .f32) (dst : Vec Ideal S4000x2 .f32) (C : Vec Ideal S2x10 .f32) (bu : Vec Ideal S10 .f32)
    (p : Fin 4000) (j : Fin 10) :
    k0_pay1 (F := Ideal) E We be A src B dst C bu (ix2 p j)
      = (((∑ h : Fin 10, ((∑ k : Fin 2, E (ix2 p k) * We (ix2 k h)) + be (ix1 h)) * A (ix2 h j))
          + ∑ k : Fin 2, src (ix2 p k) * B (ix2 k j))
          + ∑ k : Fin 2, dst (ix2 p k) * C (ix2 k j)) + bu (ix1 j) := by
  unfold k0_pay1
  refine (addf_apply _ _ _).trans ?_
  refine congrArg₂ (· + ·) ?_ ((broadcastTo_1b_ab_apply _ _ p j).trans (shapeCast_a_1a_apply _ _ 0 j))
  refine (addf_apply _ _ _).trans ?_
  refine congrArg₂ (· + ·) ?_ ?_
  · refine (addf_apply _ _ _).trans ?_
    refine congrArg₂ (· + ·) ?_ ?_
    · refine (wide_apply _ _ p j).trans ?_
      refine Finset.sum_congr rfl fun h _ => congrArg₂ (· * ·) ?_ ?_
      · refine (addf_apply _ _ _).trans ?_
        exact congrArg₂ (· + ·) (thin_apply _ _ p h) ((broadcastTo_1b_ab_apply _ _ p h).trans (shapeCast_a_1a_apply _ _ 0 h))
      · exact congrFun (shapeCast_self A shapeCasts_S10x10_S10x10) (ix2 h j)
    · refine (thin_apply _ _ p j).trans ?_
      exact Finset.sum_congr rfl fun k _ => congrArg₂ (· * ·) (congrFun (shapeCast_self src shapeCasts_S4000x2_S4000x2) (ix2 p k)) (congrFun (shapeCast_self B shapeCasts_S2x10_S2x10) (ix2 k j))
  · refine (thin_apply _ _ p j).trans ?_
    exact Finset.sum_congr rfl fun k _ => congrArg₂ (· * ·) (congrFun (shapeCast_self dst shapeCasts_S4000x2_S4000x2) (ix2 p k)) (congrFun (shapeCast_self C shapeCasts_S2x10_S2x10) (ix2 k j))

/-! ## From blocks to the array -/

theorem hz : (![0, 0] : Fin 2 → Nat) = fun _ => 0 := funext fun a => by fin_cases a <;> rfl
theorem hz1 : (![0] : Fin 1 → Nat) = fun _ => 0 := funext fun a => by fin_cases a <;> rfl

/-- What the printed index maps give at a point: the three row-tiled inputs and the output are block `t` of their
    arrays (axis 0 at `t`, axis 1 at 0); the six small operands are always their one block. -/
structure IdxFacts (t : Fin cfg0.N) : Prop where
  r0 : win0_0.index t (0 : Fin 2) = t.val ∧ win0_0.index t (1 : Fin 2) = 0
  r1 : win0_1.index t (0 : Fin 2) = t.val ∧ win0_1.index t (1 : Fin 2) = 0
  r2 : win0_2.index t (0 : Fin 2) = t.val ∧ win0_2.index t (1 : Fin 2) = 0
  r3 : win0_3.index t (0 : Fin 2) = 0 ∧ win0_3.index t (1 : Fin 2) = 0
  r4 : win0_4.index t (0 : Fin 1) = 0
  r5 : win0_5.index t (0 : Fin 2) = 0 ∧ win0_5.index t (1 : Fin 2) = 0
  r6 : win0_6.index t (0 : Fin 2) = 0 ∧ win0_6.index t (1 : Fin 2) = 0
  r7 : win0_7.index t (0 : Fin 2) = 0 ∧ win0_7.index t (1 : Fin 2) = 0
  r8 : win0_8.index t (0 : Fin 1) = 0
  r9 : win0_9.index t (0 : Fin 2) = t.val ∧ win0_9.index t (1 : Fin 2) = 0

/-- Decided over the 800 points. -/
theorem idx_facts (t : Fin cfg0.N) : IdxFacts t :=
  have h : ∀ t : Fin cfg0.N, (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 2) = 0 ∧ win0_3.index t (1 : Fin 2) = 0)
      ∧ win0_4.index t (0 : Fin 1) = 0
      ∧ (win0_5.index t (0 : Fin 2) = 0 ∧ win0_5.index t (1 : Fin 2) = 0)
      ∧ (win0_6.index t (0 : Fin 2) = 0 ∧ win0_6.index t (1 : Fin 2) = 0)
      ∧ (win0_7.index t (0 : Fin 2) = 0 ∧ win0_7.index t (1 : Fin 2) = 0)
      ∧ win0_8.index t (0 : Fin 1) = 0
      ∧ (win0_9.index t (0 : Fin 2) = t.val ∧ win0_9.index t (1 : Fin 2) = 0) :=
    (by decide +kernel : ∀ t : Fin grid0.N, _)
  let ⟨a0, a1, a2, a3, a4, a5, a6, a7, a8, a9⟩ := h t
  ⟨a0, a1, a2, a3, a4, a5, a6, a7, a8, a9⟩

theorem t_lt (t : Fin cfg0.N) : t.val < 800 := by
  have h := t.isLt
  have hN : cfg0.N = 800 := N_0
  omega

/-- Row `p` of block `t` is row `4000·t + p` of the edge arrays. -/
def row (t : Fin cfg0.N) (p : Fin 4000) : Fin 3200000 := ⟨t.val * 4000 + p.val, by have := t_lt t; have := p.isLt; omega⟩

theorem emb_E (t : Fin cfg0.N) (p : Fin 4000) (k : Fin 2) : ((cfg0.win 0).blk t).view.emb (ix2 p k) = ix2 (row t p) k := by
  have e := idx_facts t
  funext a; apply Fin.ext
  match a with
  | ⟨0, _⟩ => show win0_0.index t (0 : Fin 2) * 4000 + 1 * p.val = t.val * 4000 + p.val; rw [e.r0.1]; omega
  | ⟨1, _⟩ => show win0_0.index t (1 : Fin 2) * 2 + 1 * k.val = k.val; rw [e.r0.2]; omega

theorem emb_src (t : Fin cfg0.N) (p : Fin 4000) (k : Fin 2) : ((cfg0.win 1).blk t).view.emb (ix2 p k) = ix2 (row t p) k := by
  have e := idx_facts t
  funext a; apply Fin.ext
  match a with
  | ⟨0, _⟩ => show win0_1.index t (0 : Fin 2) * 4000 + 1 * p.val = t.val * 4000 + p.val; rw [e.r1.1]; omega
  | ⟨1, _⟩ => show win0_1.index t (1 : Fin 2) * 2 + 1 * k.val = k.val; rw [e.r1.2]; omega

theorem emb_dst (t : Fin cfg0.N) (p : Fin 4000) (k : Fin 2) : ((cfg0.win 2).blk t).view.emb (ix2 p k) = ix2 (row t p) k := by
  have e := idx_facts t
  funext a; apply Fin.ext
  match a with
  | ⟨0, _⟩ => show win0_2.index t (0 : Fin 2) * 4000 + 1 * p.val = t.val * 4000 + p.val; rw [e.r2.1]; omega
  | ⟨1, _⟩ => show win0_2.index t (1 : Fin 2) * 2 + 1 * k.val = k.val; rw [e.r2.2]; omega

theorem emb_We (t : Fin cfg0.N) (a₀ : Fin 2) (a₁ : Fin 10) : ((cfg0.win 3).blk t).view.emb (ix2 a₀ a₁) = ix2 a₀ a₁ := by
  have e := idx_facts t
  funext a; apply Fin.ext
  match a with
  | ⟨0, _⟩ => show win0_3.index t (0 : Fin 2) * 2 + 1 * a₀.val = a₀.val; rw [e.r3.1]; omega
  | ⟨1, _⟩ => show win0_3.index t (1 : Fin 2) * 10 + 1 * a₁.val = a₁.val; rw [e.r3.2]; omega

theorem emb_be (t : Fin cfg0.N) (a₀ : Fin 10) : ((cfg0.win 4).blk t).view.emb (ix1 a₀) = ix1 a₀ := by
  have e := idx_facts t
  funext a; apply Fin.ext
  match a with
  | ⟨0, _⟩ => show win0_4.index t (0 : Fin 1) * 10 + 1 * a₀.val = a₀.val; rw [e.r4]; omega

theorem emb_A (t : Fin cfg0.N) (a₀ : Fin 10) (a₁ : Fin 10) : ((cfg0.win 5).blk t).view.emb (ix2 a₀ a₁) = ix2 a₀ a₁ := by
  have e := idx_facts t
  funext a; apply Fin.ext
  match a with
  | ⟨0, _⟩ => show win0_5.index t (0 : Fin 2) * 10 + 1 * a₀.val = a₀.val; rw [e.r5.1]; omega
  | ⟨1, _⟩ => show win0_5.index t (1 : Fin 2) * 10 + 1 * a₁.val = a₁.val; rw [e.r5.2]; omega

theorem emb_B (t : Fin cfg0.N) (a₀ : Fin 2) (a₁ : Fin 10) : ((cfg0.win 6).blk t).view.emb (ix2 a₀ a₁) = ix2 a₀ a₁ := by
  have e := idx_facts t
  funext a; apply Fin.ext
  match a with
  | ⟨0, _⟩ => show win0_6.index t (0 : Fin 2) * 2 + 1 * a₀.val = a₀.val; rw [e.r6.1]; omega
  | ⟨1, _⟩ => show win0_6.index t (1 : Fin 2) * 10 + 1 * a₁.val = a₁.val; rw [e.r6.2]; omega

theorem emb_C (t : Fin cfg0.N) (a₀ : Fin 2) (a₁ : Fin 10) : ((cfg0.win 7).blk t).view.emb (ix2 a₀ a₁) = ix2 a₀ a₁ := by
  have e := idx_facts t
  funext a; apply Fin.ext
  match a with
  | ⟨0, _⟩ => show win0_7.index t (0 : Fin 2) * 2 + 1 * a₀.val = a₀.val; rw [e.r7.1]; omega
  | ⟨1, _⟩ => show win0_7.index t (1 : Fin 2) * 10 + 1 * a₁.val = a₁.val; rw [e.r7.2]; omega

theorem emb_bu (t : Fin cfg0.N) (a₀ : Fin 10) : ((cfg0.win 8).blk t).view.emb (ix1 a₀) = ix1 a₀ := by
  have e := idx_facts t
  funext a; apply Fin.ext
  match a with
  | ⟨0, _⟩ => show win0_8.index t (0 : Fin 1) * 10 + 1 * a₀.val = a₀.val; rw [e.r8]; omega

theorem emb_out (t : Fin cfg0.N) (p : Fin 4000) (j : Fin 10) : ((cfg0.win 9).blk t).view.emb (ix2 p j) = ix2 (row t p) j := by
  have e := idx_facts t
  funext a; apply Fin.ext
  match a with
  | ⟨0, _⟩ => show win0_9.index t (0 : Fin 2) * 4000 + 1 * p.val = t.val * 4000 + p.val; rw [e.r9.1]; omega
  | ⟨1, _⟩ => show win0_9.index t (1 : Fin 2) * 10 + 1 * j.val = j.val; rw [e.r9.2]; omega

variable (V : (c : Dev nD) → (b : Ref sig .tc) → Buf (Elt Ideal) ((c : Thread nD τ).loc b))

/-- The nine blocks a point loads, read where they lie in their arrays. -/
theorem blk_E (c : Dev nD) (t : Fin cfg0.N) (p : Fin 4000) (k : Fin 2) : iblk0 V c 0 t (ix2 p k) = V c main_arg1 (ix2 (row t p) k) :=
  congrArg (V c main_arg1) (emb_E t p k)
theorem blk_src (c : Dev nD) (t : Fin cfg0.N) (p : Fin 4000) (k : Fin 2) : iblk0 V c 1 t (ix2 p k) = V c main_v4 (ix2 (row t p) k) :=
  congrArg (V c main_v4) (emb_src t p k)
theorem blk_dst (c : Dev nD) (t : Fin cfg0.N) (p : Fin 4000) (k : Fin 2) : iblk0 V c 2 t (ix2 p k) = V c main_v5 (ix2 (row t p) k) :=
  congrArg (V c main_v5) (emb_dst t p k)
theorem blk_We (c : Dev nD) (t : Fin cfg0.N) (k : Fin 2) (h : Fin 10) : iblk0 V c 3 t (ix2 k h) = V c main_arg3 (ix2 k h) :=
  congrArg (V c main_arg3) (emb_We t k h)
theorem blk_be (c : Dev nD) (t : Fin cfg0.N) (h : Fin 10) : iblk0 V c 4 t (ix1 h) = V c main_arg4 (ix1 h) :=
  congrArg (V c main_arg4) (emb_be t h)
theorem blk_A (c : Dev nD) (t : Fin cfg0.N) (h j : Fin 10) : iblk0 V c 5 t (ix2 h j) = V c main_v6 (ix2 h j) :=
  congrArg (V c main_v6) (emb_A t h j)
theorem blk_B (c : Dev nD) (t : Fin cfg0.N) (k : Fin 2) (j : Fin 10) : iblk0 V c 6 t (ix2 k j) = V c main_v7 (ix2 k j) :=
  congrArg (V c main_v7) (emb_B t k j)
theorem blk_C (c : Dev nD) (t : Fin cfg0.N) (k : Fin 2) (j : Fin 10) : iblk0 V c 7 t (ix2 k j) = V c main_v8 (ix2 k j) :=
  congrArg (V c main_v8) (emb_C t k j)
theorem blk_bu (c : Dev nD) (t : Fin cfg0.N) (j : Fin 10) : iblk0 V c 8 t (ix1 j) = V c main_arg6 (ix1 j) :=
  congrArg (V c main_arg6) (emb_bu t j)

/-- The edge update of the nine arrays as the region finds them. -/
abbrev G (c : Dev nD) : S3200000x10.Idx → EReal :=
  Spec.edgeMsg (V c main_arg1) (V c main_v4) (V c main_v5) (V c main_arg3) (V c main_arg4) (V c main_v6) (V c main_v7) (V c main_v8) (V c main_arg6)

/-- What point `t` writes back is block `t` of the edge update of the arrays as the region finds them. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S4000x2) hz, View.ld_unit_zero (S := S2x10) hz, View.ld_unit_zero (S := S10x10) hz, View.ld_unit_zero (S := S10) hz1]
  funext y
  obtain ⟨p, j, rfl⟩ : ∃ (p : Fin 4000) (j : Fin 10), y = ix2 p j := ⟨y 0, y 1, eq_ix2 y⟩
  refine (pay_apply (iblk0 V c 0 t) (iblk0 V c 3 t) (iblk0 V c 4 t) (iblk0 V c 5 t) (iblk0 V c 1 t) (iblk0 V c 6 t) (iblk0 V c 2 t) (iblk0 V c 7 t) (iblk0 V c 8 t) p j).trans ?_
  refine Eq.trans ?_ (congrArg (G V c) (emb_out t p j).symm)
  refine congrArg₂ (· + ·) (congrArg₂ (· + ·) (congrArg₂ (· + ·) ?_ ?_) ?_) (blk_bu V c t j)
  · refine Finset.sum_congr rfl fun h _ => congrArg₂ (· * ·) ?_ (blk_A V c t h j)
    exact congrArg₂ (· + ·) (Finset.sum_congr rfl fun k _ => congrArg₂ (· * ·) (blk_E V c t p k) (blk_We V c t k h)) (blk_be V c t h)
  · exact Finset.sum_congr rfl fun k _ => congrArg₂ (· * ·) (blk_src V c t p k) (blk_B V c t k j)
  · exact Finset.sum_congr rfl fun k _ => congrArg₂ (· * ·) (blk_dst V c t p k) (blk_C V c t k j)

/-- An index of the array is in point `t`'s block iff each coordinate is in the block's range on its axis. -/
theorem mem_blk (t : Fin cfg0.N) (i : S3200000x10.Idx) :
    i ∈ ((cfg0.win 9).blk t).view.set ↔ ∀ a : Fin 2, win0_9.index t a * S4000x10.size a ≤ (i a).val ∧ (i a).val < win0_9.index t a * S4000x10.size a + S4000x10.size a := by
  show i ∈ ((View.whole main_v9).slice (win0_9.rect t)).set ↔ _
  rw [View.set_slice_whole, Rect.mem_set_unit]
  exact Iff.rfl

/-- Every row lies in the block of the point `row / 4000`, which is written back. -/
theorem cover (i : S3200000x10.Idx) : ∃ t : Fin cfg0.N, (cfg0.win 9).flush t = true ∧ i ∈ ((cfg0.win 9).blk t).view.set := by
  have hi0 : (i 0).val < 3200000 := (i 0).isLt
  have hi1 : (i 1).val < 10 := (i 1).isLt
  have hN : cfg0.N = 800 := N_0
  have ht : (i 0).val / 4000 < cfg0.N := by rw [hN]; omega
  refine ⟨⟨(i 0).val / 4000, ht⟩, flush0_9 _, ?_⟩
  rw [mem_blk]
  have e := (idx_facts ⟨(i 0).val / 4000, ht⟩).r9
  intro a
  match a with
  | ⟨0, _⟩ =>
    show win0_9.index ⟨(i 0).val / 4000, ht⟩ (0 : Fin 2) * 4000 ≤ (i 0).val ∧ (i 0).val < win0_9.index ⟨(i 0).val / 4000, ht⟩ (0 : Fin 2) * 4000 + 4000
    rw [e.1]
    show (i 0).val / 4000 * 4000 ≤ (i 0).val ∧ (i 0).val < (i 0).val / 4000 * 4000 + 4000
    omega
  | ⟨1, _⟩ =>
    show win0_9.index ⟨(i 0).val / 4000, ht⟩ (1 : Fin 2) * 10 ≤ (i 1).val ∧ (i 1).val < win0_9.index ⟨(i 0).val / 4000, ht⟩ (1 : Fin 2) * 10 + 10
    rw [e.2]
    omega

/-- THE EDGE RESULT after the run: the edge update of the nine arrays as the region finds them. -/
theorem final (c : Dev nD) : (dat0 V c).arrAt 9 cfg0.N = G V c :=
  (dat0 V c).arrAt_eq_of_cover 9 _ (fun t _ => flushed_eq V c t) cover

end Cert.KernelIdeal.EdgeValue

end
-- ==== Proof.TakeFill.lean ====
/-
  The kernel side's row lookup `take(x, idx)`: the index is first wrapped (a negative word gets the table's
  height added), the rows are gathered at the wrapped index, and every row whose wrapped index falls outside
  0 … 99999 is replaced by a fill value. When every index word already lies in 0 … 99999 the wrap changes
  nothing, every row passes the range test, and the lookup is the plain gather at the wrapped index — which is
  what the reference computes.
-/
import proofs.«427230_j86612310491809_2_alg».proof.Proof.Gen.KernelIdeal
import Idealize.ShloMosaic.PureOps.Ideal
import Idealize.ShloMosaic.Lib.ReduceAll
import Idealize.ShloMosaic.Lib.ValueIdx
import Idealize.ShloMosaic.Lib.Pipeline.Value

noncomputable section

namespace Cert.KernelIdeal.Take

open Cert.KernelIdeal Cert.KernelIdeal.Facts₀ Idealize.ShloMosaic Idealize.ShloMosaic.ValueIdx

/-! ## Words that name a row of the table -/

/-- A signed 32-bit word `w` with `0 ≤ w < 100000`, as the two comparisons a range test makes. -/
def IsRow (w : BitVec 32) : Prop := IntOp.cmpi .sge w 0#32 = 1#1 ∧ IntOp.cmpi .slt w 100000#32 = 1#1

/-- Such a word is not negative … -/
theorem not_neg {w : BitVec 32} (h : IsRow w) : IntOp.cmpi .slt w 0#32 = 0#1 := by
  have h0 := IntOp.cmpi_sge.1 h.1
  refine eq_zero_of_ne_one fun h1 => ?_
  have h2 := IntOp.cmpi_slt.1 h1
  omega

/-- … and is at most 99999. -/
theorem le_last {w : BitVec 32} (h : IsRow w) : IntOp.cmpi .sle w 99999#32 = 1#1 := by
  have h1 := IntOp.cmpi_slt.1 h.2
  rw [IntOp.cmpi_sle]
  have a : (100000#32 : BitVec 32).toInt = 100000 := by decide
  have b : (99999#32 : BitVec 32).toInt = 99999 := by decide
  omega

/-! ## A conjunction over all entries -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons.2 (Or.inl rfl))
    have e : IntOp.andi 1#1 (f a) = 1#1 := by rw [ha]; decide
    show l.foldl (fun r n => IntOp.andi r (f n)) (IntOp.andi 1#1 (f a)) = 1#1
    rw [e]
    exact foldl_andi_one f l fun n hn => h n (List.mem_cons.2 (Or.inr hn))

/-- An `and`-reduction from 1 of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-! ## The lookup -/

/-- Row 0 of the 2 × E index array as a vector of E words (the source endpoints) … -/
def idxRow0 (I : IVec S2x3200000 32) : IVec S3200000 32 :=
  shapeCast S3200000 (extractStridedSlice S1x3200000 ![0, 0] I slices_S2x3200000_S1x3200000_0_0) shapeCasts_S1x3200000_S3200000
/-- … and row 1 (the destination endpoints). -/
def idxRow1 (I : IVec S2x3200000 32) : IVec S3200000 32 :=
  shapeCast S3200000 (extractStridedSlice S1x3200000 ![1, 0] I slices_S2x3200000_S1x3200000_1_0) shapeCasts_S1x3200000_S3200000

/-- The wrap of negative indices: `v < 0 ? v + 100000 : v`, word by word. -/
def wrap (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- The wrapped indices as an E × 1 column of start indices. -/
def col (v : IVec S3200000 32) : IVec S3200000x1 32 := broadcastInDim S3200000x1 ![0] bcast_S3200000_S3200000x1_0 (wrap v)

/-- The range test per edge: the wrapped index is `≥ 0` and `≤ 99999`. -/
def rowOk (v : IVec S3200000 32) : IVec S3200000 1 :=
  Host.reduce IntOp.andi
    (andi (cmpi .sge (col v) (broadcastInDim S3200000x1 ![] bcast_S_S3200000x1 (constantI S_ 32 0#32)))
      (cmpi .sle (col v) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The rows of `x` gathered at the wrapped indices. -/
def gathered (x : FVec Ideal S100000x2 .f32) (v : IVec S3200000 32) : FVec Ideal S3200000x2 .f32 :=
  Host.gather gather_S100000x2_S3200000x1_S3200000x2_1_0_n_n_0_1_12 x (col v)

/-- The lookup with its fill: the gathered row where the range test passes, the fill value elsewhere. -/
def takeFill (x : FVec Ideal S100000x2 .f32) (v : IVec S3200000 32) : FVec Ideal S3200000x2 .f32 :=
  select (broadcastInDim S3200000x2 ![0] bcast_S3200000_S3200000x2_0 (rowOk v)) (gathered x v)
    (broadcastInDim S3200000x2 ![] bcast_S_S3200000x2 (constant (F := Ideal) S_ .f32 0x7FC00000#32))

/-- Each row of the index array inherits a property that every entry of the array has. -/
theorem idxRow0_of {P : BitVec 32 → Prop} (I : IVec S2x3200000 32) (hI : ∀ i, P (I i)) (e : S3200000.Idx) : P (idxRow0 I e) := hI _
theorem idxRow1_of {P : BitVec 32 → Prop} (I : IVec S2x3200000 32) (hI : ∀ i, P (I i)) (e : S3200000.Idx) : P (idxRow1 I e) := hI _

section InRange

variable (v : IVec S3200000 32) (hv : ∀ e, IsRow (v e))
include hv

/-- In range the wrap is the identity … -/
theorem wrap_apply (e : S3200000.Idx) : wrap v e = v e := by
  show Scalar.select (IntOp.cmpi .slt (v e) 0#32) (IntOp.addi (v e) 100000#32) (v e) = v e
  rw [not_neg (hv e)]
  exact select_zero _ _

/-- … so every start index names a row, … -/
theorem col_isRow (i : S3200000x1.Idx) : IsRow (col v i) := by
  show IsRow (wrap v _)
  rw [wrap_apply v hv]
  exact hv _

/-- … every edge passes the range test, … -/
theorem rowOk_apply (e : S3200000.Idx) : rowOk v e = 1#1 := by
  unfold rowOk
  refine reduce_andi_of_all _ _ _ _ e (fun i => ?_) rfl
  show IntOp.andi (IntOp.cmpi .sge (col v i) 0#32) (IntOp.cmpi .sle (col v i) 99999#32) = 1#1
  exact IntOp.andi_eq_one.2 ⟨(col_isRow v hv i).1, le_last (col_isRow v hv i)⟩

/-- … and the lookup is the plain gather: the fill is never taken. -/
theorem takeFill_eq (x : FVec Ideal S100000x2 .f32) : takeFill x v = gathered x v := by
  funext i
  have hm : broadcastInDim S3200000x2 ![0] bcast_S3200000_S3200000x2_0 (rowOk v) i = 1#1 :=
    (broadcastInDim_apply _ bcast_S3200000_S3200000x2_0 (rowOk v) i (ix1 (i 0)) (fun a => match a with
      | ⟨0, _⟩ => by show (i 0).val = if (3200000 : Nat) = 1 then 0 else (i 0).val; rw [if_neg (by decide)])).trans
      (rowOk_apply v hv _)
  unfold takeFill
  rw [select_apply, hm]
  exact select_one _ _

end InRange

end Cert.KernelIdeal.Take

end
-- ==== Proof.HostSide.lean ====
/-
  What the two regions find in their input arrays, as functions of the launch memory.

  Before the edge region the host computes, from the arguments: the two endpoint lookups (rows of the node table
  at the two rows of the index array, with the out-of-range fill) and the three row blocks of the 14×10 update
  weight; every other array the regions read is an argument, untouched. The node region runs after the edge
  region and reads three arguments, which the edge region does not write.
-/
import proofs.«427230_j86612310491809_2_alg».proof.Proof.Gen.KernelIdeal.Frame
import proofs.«427230_j86612310491809_2_alg».proof.Proof.TakeFill
import proofs.«427230_j86612310491809_2_alg».proof.Proof.Spec
import Idealize.ShloMosaic.Lib.StableHlo.Run
import Idealize.ShloMosaic.Lib.Pipeline.Value
import Idealize.ShloMosaic.PureOps.Ideal

set_option maxRecDepth 16384
set_option maxHeartbeats 1000000

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Contents moved to a buffer's own type and back are unchanged. -/
theorem ofBuf_toBuf {T : BufTy} (x : StableHlo.TRef sig T) (v : T.Contents (Elt Ideal)) : x.ofBuf (x.toBuf v) = v := by
  obtain ⟨r, h, h1, h2⟩ := x
  subst h
  rfl

/-- At the references of the two lookups the move between a value's type and its buffer's is the identity. -/
theorem ofBuf_idx0 (p q r) (v : IVec S3200000 32) :
    (StableHlo.TRef.of (sig := sig) (T := ⟨S3200000, .i32⟩) main_v1 p q r).ofBuf (Val := Elt Ideal) v = v := rfl
theorem ofBuf_idx1 (p q r) (v : IVec S3200000 32) :
    (StableHlo.TRef.of (sig := sig) (T := ⟨S3200000, .i32⟩) main_v3 p q r).ofBuf (Val := Elt Ideal) v = v := rfl
theorem ofBuf_table (p q r) (v : FVec Ideal S100000x2 .f32) :
    (StableHlo.TRef.of (sig := sig) (T := ⟨S100000x2, .f32⟩) main_arg0 p q r).ofBuf (Val := Elt Ideal) v = v := rfl
theorem toBuf_src (p q r) (v : FVec Ideal S3200000x2 .f32) :
    ((StableHlo.TRef.of (sig := sig) (T := ⟨S3200000x2, .f32⟩) main_v4 p q r).toBuf (Val := Elt Ideal) v : FVec Ideal S3200000x2 .f32) = v := rfl
theorem toBuf_dst (p q r) (v : FVec Ideal S3200000x2 .f32) :
    ((StableHlo.TRef.of (sig := sig) (T := ⟨S3200000x2, .f32⟩) main_v5 p q r).toBuf (Val := Elt Ideal) v : FVec Ideal S3200000x2 .f32) = v := rfl

/-! ## At the edge region's entry -/

/-- The node table is as launched. -/
theorem at0_table (c : Dev nD) : (V4 m ρ c main_arg0 : S100000x2.Idx → EReal) = m ((c : Thread nD τ).loc main_arg0) := by
  show StableHlo.after hostOps0_3 (StableHlo.after hostOps0_2 (StableHlo.after hostOps0_1 (StableHlo.after hostOps0 (W0 m ρ c)))) (Proc.devRef .tc main_arg0) = _
  after_results_simp

/-- The edge features are as launched. -/
theorem at0_E (c : Dev nD) : (V4 m ρ c main_arg1 : S3200000x2.Idx → EReal) = m ((c : Thread nD τ).loc main_arg1) := by
  show StableHlo.after hostOps0_3 (StableHlo.after hostOps0_2 (StableHlo.after hostOps0_1 (StableHlo.after hostOps0 (W0 m ρ c)))) (Proc.devRef .tc main_arg1) = _
  after_results_simp

/-- The first layer's weight … -/
theorem at0_We (c : Dev nD) : (V4 m ρ c main_arg3 : S2x10.Idx → EReal) = m ((c : Thread nD τ).loc main_arg3) := by
  show StableHlo.after hostOps0_3 (StableHlo.after hostOps0_2 (StableHlo.after hostOps0_1 (StableHlo.after hostOps0 (W0 m ρ c)))) (Proc.devRef .tc main_arg3) = _
  after_results_simp

/-- … and bias are as launched. -/
theorem at0_be (c : Dev nD) : (V4 m ρ c main_arg4 : S10.Idx → EReal) = m ((c : Thread nD τ).loc main_arg4) := by
  show StableHlo.after hostOps0_3 (StableHlo.after hostOps0_2 (StableHlo.after hostOps0_1 (StableHlo.after hostOps0 (W0 m ρ c)))) (Proc.devRef .tc main_arg4) = _
  after_results_simp

/-- The update layer's bias is as launched. -/
theorem at0_bu (c : Dev nD) : (V4 m ρ c main_arg6 : S10.Idx → EReal) = m ((c : Thread nD τ).loc main_arg6) := by
  show StableHlo.after hostOps0_3 (StableHlo.after hostOps0_2 (StableHlo.after hostOps0_1 (StableHlo.after hostOps0 (W0 m ρ c)))) (Proc.devRef .tc main_arg6) = _
  after_results_simp

/-- The node layer's weight … -/
theorem at0_Wn (c : Dev nD) : (V4 m ρ c main_arg7 : S2x2.Idx → EReal) = m ((c : Thread nD τ).loc main_arg7) := by
  show StableHlo.after hostOps0_3 (StableHlo.after hostOps0_2 (StableHlo.after hostOps0_1 (StableHlo.after hostOps0 (W0 m ρ c)))) (Proc.devRef .tc main_arg7) = _
  after_results_simp

/-- … and bias are as launched. -/
theorem at0_bn (c : Dev nD) : (V4 m ρ c main_arg8 : S2.Idx → EReal) = m ((c : Thread nD τ).loc main_arg8) := by
  show StableHlo.after hostOps0_3 (StableHlo.after hostOps0_2 (StableHlo.after hostOps0_1 (StableHlo.after hostOps0 (W0 m ρ c)))) (Proc.devRef .tc main_arg8) = _
  after_results_simp

/-- The source lookup: the node table's rows at row 0 of the index array, with the fill. -/
theorem at0_src (c : Dev nD) : (V4 m ρ c main_v4 : S3200000x2.Idx → EReal)
    = Take.takeFill (m ((c : Thread nD τ).loc main_arg0)) (Take.idxRow0 (m ((c : Thread nD τ).loc main_arg2))) := by
  show StableHlo.after hostOps0_3 (StableHlo.after hostOps0_2 (StableHlo.after hostOps0_1 (StableHlo.after hostOps0 (W0 m ρ c)))) (Proc.devRef .tc main_v4) = _
  after_results_simp
  simp only [ofBuf_toBuf, ofBuf_idx0, ofBuf_idx1, ofBuf_table, toBuf_src, toBuf_dst]
  unfold Take.takeFill Take.gathered Take.rowOk Take.col Take.wrap Take.idxRow0
  rfl

/-- The destination lookup: the same at row 1 of the index array. -/
theorem at0_dst (c : Dev nD) : (V4 m ρ c main_v5 : S3200000x2.Idx → EReal)
    = Take.takeFill (m ((c : Thread nD τ).loc main_arg0)) (Take.idxRow1 (m ((c : Thread nD τ).loc main_arg2))) := by
  show StableHlo.after hostOps0_3 (StableHlo.after hostOps0_2 (StableHlo.after hostOps0_1 (StableHlo.after hostOps0 (W0 m ρ c)))) (Proc.devRef .tc main_v5) = _
  after_results_simp
  simp only [ofBuf_toBuf, ofBuf_idx0, ofBuf_idx1, ofBuf_table, toBuf_src, toBuf_dst]
  unfold Take.takeFill Take.gathered Take.rowOk Take.col Take.wrap Take.idxRow1
  rfl

/-- Rows 0–9 of the update weight. -/
theorem at0_A (c : Dev nD) : (V4 m ρ c main_v6 : S10x10.Idx → EReal) = Spec.rowBlock10 (m ((c : Thread nD τ).loc main_arg5)) := by
  show StableHlo.after hostOps0_3 (StableHlo.after hostOps0_2 (StableHlo.after hostOps0_1 (StableHlo.after hostOps0 (W0 m ρ c)))) (Proc.devRef .tc main_v6) = _
  after_results_simp
  funext i
  refine extractStridedSlice_apply _ _ _ i _ fun a => ?_
  match a with
  | ⟨0, _⟩ => exact (Nat.zero_add _).symm
  | ⟨1, _⟩ => exact (Nat.zero_add _).symm

/-- Rows 10, 11 of the update weight. -/
theorem at0_B (c : Dev nD) : (V4 m ρ c main_v7 : S2x10.Idx → EReal) = Spec.rowBlock2 10 (by omega) (m ((c : Thread nD τ).loc main_arg5)) := by
  show StableHlo.after hostOps0_3 (StableHlo.after hostOps0_2 (StableHlo.after hostOps0_1 (StableHlo.after hostOps0 (W0 m ρ c)))) (Proc.devRef .tc main_v7) = _
  after_results_simp
  funext i
  refine extractStridedSlice_apply _ _ _ i _ fun a => ?_
  match a with
  | ⟨0, _⟩ => rfl
  | ⟨1, _⟩ => exact (Nat.zero_add _).symm

/-- Rows 12, 13 of the update weight. -/
theorem at0_C (c : Dev nD) : (V4 m ρ c main_v8 : S2x10.Idx → EReal) = Spec.rowBlock2 12 (by omega) (m ((c : Thread nD τ).loc main_arg5)) := by
  show StableHlo.after hostOps0_3 (StableHlo.after hostOps0_2 (StableHlo.after hostOps0_1 (StableHlo.after hostOps0 (W0 m ρ c)))) (Proc.devRef .tc main_v8) = _
  after_results_simp
  funext i
  refine extractStridedSlice_apply _ _ _ i _ fun a => ?_
  match a with
  | ⟨0, _⟩ => rfl
  | ⟨1, _⟩ => exact (Nat.zero_add _).symm

/-! ## At the node region's entry: the edge region wrote none of the three arrays it reads -/

theorem at1_table (c : Dev nD) : (V5 m ρ c main_arg0 : S100000x2.Idx → EReal) = m ((c : Thread nD τ).loc main_arg0) :=
  (W5_of_ne m ρ c main_arg0 (by decide)).trans (at0_table m ρ c)

theorem at1_Wn (c : Dev nD) : (V5 m ρ c main_arg7 : S2x2.Idx → EReal) = m ((c : Thread nD τ).loc main_arg7) :=
  (W5_of_ne m ρ c main_arg7 (by decide)).trans (at0_Wn m ρ c)

theorem at1_bn (c : Dev nD) : (V5 m ρ c main_arg8 : S2.Idx → EReal) = m ((c : Thread nD τ).loc main_arg8) :=
  (W5_of_ne m ρ c main_arg8 (by decide)).trans (at0_bn m ρ c)

end Cert.KernelIdeal.HostSide

end
-- ==== Proof.KernelValue.lean ====
/-
  The idealized kernel's two results as functions of the launch memory.

  The node result is the node region's output array: `Spec.nodeLin` of the node table, the 2×2 weight and the bias.
  The edge result is the edge region's output array, which the later node region does not touch: `Spec.edgeOut`
  of the edge features, the two endpoint lookups and the weights — and when every index word is a row number of
  the table, each lookup is the plain gather at the wrapped index.
-/
import proofs.«427230_j86612310491809_2_alg».proof.Proof.KernelRun
import proofs.«427230_j86612310491809_2_alg».proof.Proof.NodeValue
import proofs.«427230_j86612310491809_2_alg».proof.Proof.EdgeValue
import proofs.«427230_j86612310491809_2_alg».proof.Proof.HostSide

set_option maxRecDepth 16384

noncomputable section

namespace Cert.KernelIdeal.Results

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The node result, as a function of the arguments. -/
abbrev nodeOf (c : Dev nD) : S100000x2.Idx → EReal :=
  Spec.nodeLin (m ((c : Thread nD τ).loc main_arg0)) (m ((c : Thread nD τ).loc main_arg7)) (m ((c : Thread nD τ).loc main_arg8))

/-- The edge result, as a function of the arguments: the endpoint tables are the node table's rows gathered at
    the wrapped rows of the index array. -/
abbrev edgeOf (c : Dev nD) : S3200000x10.Idx → EReal :=
  Spec.edgeOut (m ((c : Thread nD τ).loc main_arg1))
    (Take.gathered (m ((c : Thread nD τ).loc main_arg0)) (Take.idxRow0 (m ((c : Thread nD τ).loc main_arg2))))
    (Take.gathered (m ((c : Thread nD τ).loc main_arg0)) (Take.idxRow1 (m ((c : Thread nD τ).loc main_arg2))))
    (m ((c : Thread nD τ).loc main_arg3)) (m ((c : Thread nD τ).loc main_arg4)) (m ((c : Thread nD τ).loc main_arg5))
    (m ((c : Thread nD τ).loc main_arg6))

theorem node_result (c : Dev nD) : W6 m ρ c (Proc.devRef .tc main_v10) = nodeOf m c :=
  ((W6_arr m ρ c 3).trans (NodeValue.final (V5 m ρ) c)).trans (by
    rw [HostSide.at1_table m ρ c, HostSide.at1_Wn m ρ c, HostSide.at1_bn m ρ c])

theorem edge_result (c : Dev nD) (hI : ∀ i, Take.IsRow (m ((c : Thread nD τ).loc main_arg2) i)) :
    W6 m ρ c (Proc.devRef .tc main_v9) = edgeOf m c :=
  ((W6_of_ne m ρ c main_v9 (by decide)).trans ((W5_arr m ρ c 9).trans (EdgeValue.final (V4 m ρ) c))).trans (by
    show Spec.edgeMsg _ _ _ _ _ _ _ _ _ = Spec.edgeMsg _ _ _ _ _ _ _ _ _
    rw [HostSide.at0_E m ρ c, HostSide.at0_src m ρ c, HostSide.at0_dst m ρ c, HostSide.at0_We m ρ c, HostSide.at0_be m ρ c,
      HostSide.at0_A m ρ c, HostSide.at0_B m ρ c, HostSide.at0_C m ρ c, HostSide.at0_bu m ρ c,
      Take.takeFill_eq _ (fun e => Take.idxRow0_of _ hI e), Take.takeFill_eq _ (fun e => Take.idxRow1_of _ hI e)])

/-- THE RUN, READ: every weakly fair execution terminates, nothing faulting, with the two results at their
    functions of the arguments and the arguments unchanged — when every index word is a row number. -/
theorem run (hI : ∀ (c : Dev nD) i, Take.IsRow (m ((c : Thread nD τ).loc main_arg2) i)) :
    θ_run defs (onTc (τ := τ) (main (F := Ideal))) ⟨m, fun _ => 0, ρ⟩ (fun r => ∀ c : Dev nD,
      r.2.mem ((c.tc : Thread nD τ).loc main_v10) = nodeOf m c
      ∧ r.2.mem ((c.tc : Thread nD τ).loc main_v9) = edgeOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (node_result m ρ c), (h c).2.1.trans (edge_result m ρ c (hI c)), (h c).2.2⟩)
    (run_results m ρ)

end Cert.KernelIdeal.Results

end
-- ==== Proof.RefStages.lean ====
/-
  The reference's two results, read one operation at a time, are the specification's functions of the arguments:
  the node result is `Spec.nodeLin`, and the edge result is `Spec.edgeOut` of the edge features, the two
  gathered endpoint tables, and the weights. For the edge result the reference joins
  [hidden | src | dst] into rows of length 14 and takes ONE product with the 14×10 weight; its sum over 14 splits
  into the sums over the three pieces (`Spec.sum_fin14`), each piece of the joined row read back from the operand
  it came from.
-/
import proofs.«427230_j86612310491809_2_alg».proof.Proof.Gen.ReferenceIdeal.Run
import proofs.«427230_j86612310491809_2_alg».proof.Proof.Gen.ReferenceIdeal.Read
import proofs.«427230_j86612310491809_2_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## The node result -/

theorem node_eq (x0 : S100000x2.Idx → EReal) (x7 : S2x2.Idx → EReal) (x8 : S2.Idx → EReal) :
    val_main_v30 (F := Ideal) x0 x7 x8 = Spec.nodeLin x0 x7 x8 := by
  funext i
  rw [val_main_v30_apply, val_main_v27_apply, val_main_v29_apply, val_main_v28_apply]
  have el : ∀ k, lidx_main_v27 i k = ix2 (i 0) k := fun k => funext fun a => Fin.ext (by
    match a with
    | ⟨0, _⟩ => rfl
    | ⟨1, _⟩ => rfl)
  have er : ∀ k, ridx_main_v27 i k = ix2 k (i 1) := fun k => funext fun a => Fin.ext (by
    match a with
    | ⟨0, _⟩ => rfl
    | ⟨1, _⟩ => rfl)
  have eb : idx_main_v28 (idx_main_v29 i) = ix1 (i 1) := funext fun a => Fin.ext (by
    match a with
    | ⟨0, _⟩ => rfl)
  simp only [el, er, eb]
  rfl

/-! ## The joined row, piece by piece -/

section Joined

variable (u0 : S3200000x10.Idx → EReal) (u1 u2 : S3200000x2.Idx → EReal) (e : Fin 3200000)

/-- Columns 0–9 of the joined row are the hidden edge feature's. -/
theorem cat_hid (h : Fin 10) :
    concatenate S3200000x14 1 [⟨S3200000x10, u0⟩, ⟨S3200000x2, u1⟩, ⟨S3200000x2, u2⟩] concatenates_S3200000x10_S3200000x2_S3200000x2_S3200000x14_d1
      (ix2 e ⟨h.val, by omega⟩) = u0 (ix2 e h) :=
  concatenate_apply_piece (t := S3200000x14) 1 [⟨S3200000x10, u0⟩, ⟨S3200000x2, u1⟩, ⟨S3200000x2, u2⟩] concatenates_S3200000x10_S3200000x2_S3200000x2_S3200000x14_d1 (ix2 e ⟨h.val, by omega⟩) 0 (Nat.succ_pos _) S3200000x10 u0 rfl rfl 0 rfl (ix2 e h)
    (fun b hb => by
      match b with
      | ⟨0, _⟩ => rfl
      | ⟨1, _⟩ => exact absurd rfl hb)
    (Nat.zero_add _)

/-- Columns 10, 11 are the source endpoint's two features. -/
theorem cat_src (k : Fin 2) :
    concatenate S3200000x14 1 [⟨S3200000x10, u0⟩, ⟨S3200000x2, u1⟩, ⟨S3200000x2, u2⟩] concatenates_S3200000x10_S3200000x2_S3200000x2_S3200000x14_d1
      (ix2 e ⟨10 + k.val, by omega⟩) = u1 (ix2 e k) :=
  concatenate_apply_piece (t := S3200000x14) 1 [⟨S3200000x10, u0⟩, ⟨S3200000x2, u1⟩, ⟨S3200000x2, u2⟩] concatenates_S3200000x10_S3200000x2_S3200000x2_S3200000x14_d1 (ix2 e ⟨10 + k.val, by omega⟩) 1 (Nat.succ_lt_succ (Nat.succ_pos _)) S3200000x2 u1 rfl rfl 10 rfl (ix2 e k)
    (fun b hb => by
      match b with
      | ⟨0, _⟩ => rfl
      | ⟨1, _⟩ => exact absurd rfl hb)
    rfl

/-- Columns 12, 13 are the destination endpoint's. -/
theorem cat_dst (k : Fin 2) :
    concatenate S3200000x14 1 [⟨S3200000x10, u0⟩, ⟨S3200000x2, u1⟩, ⟨S3200000x2, u2⟩] concatenates_S3200000x10_S3200000x2_S3200000x2_S3200000x14_d1
      (ix2 e ⟨12 + k.val, by omega⟩) = u2 (ix2 e k) :=
  concatenate_apply_piece (t := S3200000x14) 1 [⟨S3200000x10, u0⟩, ⟨S3200000x2, u1⟩, ⟨S3200000x2, u2⟩] concatenates_S3200000x10_S3200000x2_S3200000x2_S3200000x14_d1 (ix2 e ⟨12 + k.val, by omega⟩) 2 (Nat.succ_lt_succ (Nat.succ_lt_succ (Nat.succ_pos _))) S3200000x2 u2 rfl rfl 12 rfl (ix2 e k)
    (fun b hb => by
      match b with
      | ⟨0, _⟩ => rfl
      | ⟨1, _⟩ => exact absurd rfl hb)
    rfl

end Joined

/-! ## The edge result -/

/-- The first layer at edge `e`, column `h`. -/
theorem hid_eq (x1 : S3200000x2.Idx → EReal) (x3 : S2x10.Idx → EReal) (x4 : S10.Idx → EReal) (e : Fin 3200000) (h : Fin 10) :
    val_main_v7 (F := Ideal) x1 x3 x4 (ix2 e h) = Spec.edgeHidden x1 x3 x4 e h := by
  rw [val_main_v7_apply, val_main_v4_apply, val_main_v6_apply, val_main_v5_apply]
  have el : ∀ k, lidx_main_v4 (ix2 e h) k = ix2 e k := fun k => funext fun a => Fin.ext (by
    match a with
    | ⟨0, _⟩ => rfl
    | ⟨1, _⟩ => rfl)
  have er : ∀ k, ridx_main_v4 (ix2 e h) k = ix2 k h := fun k => funext fun a => Fin.ext (by
    match a with
    | ⟨0, _⟩ => rfl
    | ⟨1, _⟩ => rfl)
  have eb : idx_main_v5 (idx_main_v6 (ix2 e h)) = ix1 h := funext fun a => Fin.ext (by
    match a with
    | ⟨0, _⟩ => rfl)
  simp only [el, er, eb]
  rfl

theorem edge_eq (x0 : S100000x2.Idx → EReal) (x1 : S3200000x2.Idx → EReal) (x2 : IVec S2x3200000 32) (x3 : S2x10.Idx → EReal)
    (x4 : S10.Idx → EReal) (x5 : S14x10.Idx → EReal) (x6 : S10.Idx → EReal) :
    val_main_v26 (F := Ideal) x0 x1 x2 x3 x4 x5 x6
      = Spec.edgeOut x1 (val_main_v14 (F := Ideal) x0 x2) (val_main_v21 (F := Ideal) x0 x2) x3 x4 x5 x6 := by
  funext i
  rw [val_main_v26_apply, val_main_v23_apply, val_main_v25_apply, val_main_v24_apply, Spec.sum_fin14]
  have eb : idx_main_v24 (idx_main_v25 i) = ix1 (i 1) := funext fun a => Fin.ext (by
    match a with
    | ⟨0, _⟩ => rfl)
  have el : ∀ k : Fin 14, lidx_main_v23 i k = ix2 (i 0) k := fun k => funext fun a => Fin.ext (by
    match a with
    | ⟨0, _⟩ => rfl
    | ⟨1, _⟩ => rfl)
  have er : ∀ k : Fin 14, ridx_main_v23 i k = ix2 k (i 1) := fun k => funext fun a => Fin.ext (by
    match a with
    | ⟨0, _⟩ => rfl
    | ⟨1, _⟩ => rfl)
  simp only [el, er, eb]
  unfold val_main_v22
  refine congrArg₂ (· + ·) (congrArg₂ (· + ·) (congrArg₂ (· + ·) ?_ ?_) ?_) rfl
  · refine Finset.sum_congr rfl fun h _ => congrArg₂ (· * ·) ?_ rfl
    exact (cat_hid _ _ _ (i 0) h).trans (hid_eq x1 x3 x4 (i 0) h)
  · exact Finset.sum_congr rfl fun k _ => congrArg₂ (· * ·) (cat_src _ _ _ (i 0) k) rfl
  · exact Finset.sum_congr rfl fun k _ => congrArg₂ (· * ·) (cat_dst _ _ _ (i 0) k) rfl

end Cert.ReferenceIdeal.RefValue

end
-- ==== Proof.PreRange.lean ====
/-
  The precondition's last conjunct says that every entry of the 2 × E index array is a row number of the node
  table: `0 ≤ idx < 100000`. Read back from the printed predicate: the conjunction of all conjuncts is 1, so the
  last one is; it is an `and` over all entries of (idx ≥ 0) ∧ (idx < 100000), so each entry passes both tests.
-/
import proofs.«427230_j86612310491809_2_alg».proof.Defs
import proofs.«427230_j86612310491809_2_alg».proof.Proof.TakeFill
import Idealize.ShloMosaic.Lib.ReduceAll
import Idealize.ShloMosaic.Lib.ValueIdx

set_option maxRecDepth 16384

noncomputable section

namespace Cert.Proof.PreRange

open Idealize.ShloMosaic Idealize.ShloMosaic.ValueIdx Idealize.SL.Sem
open Cert.KernelIdeal.Take (IsRow)

instance : Subsingleton Cert.Pre_finite_inputs.S_.Idx := ⟨fun a b => funext fun d => d.elim0⟩

/-- Where the printed predicate evaluates to 1, every index word is a row number. -/
theorem isRow_of_fn [Cert.Pre_finite_inputs.Facts] {F : FTy → Type} [FloatOps F]
    (a0 : FVec F Cert.Pre_finite_inputs.S100000x2 .f32) (a1 : FVec F Cert.Pre_finite_inputs.S3200000x2 .f32)
    (a2 : IVec Cert.Pre_finite_inputs.S2x3200000 32) (a3 : FVec F Cert.Pre_finite_inputs.S2x10 .f32)
    (a4 : FVec F Cert.Pre_finite_inputs.S10 .f32) (a5 : FVec F Cert.Pre_finite_inputs.S14x10 .f32)
    (a6 : FVec F Cert.Pre_finite_inputs.S10 .f32) (a7 : FVec F Cert.Pre_finite_inputs.S2x2 .f32)
    (a8 : FVec F Cert.Pre_finite_inputs.S2 .f32)
    (h : Cert.Pre_finite_inputs.fn (F := F) a0 a1 a2 a3 a4 a5 a6 a7 a8 = fun _ => 1#1)
    (i : Cert.Pre_finite_inputs.S2x3200000.Idx) : IsRow (a2 i) := by
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 i
  exact IntOp.andi_eq_one.1 h2

/-- Under the idealized kernel's precondition every entry of its index array is a row number. -/
theorem isRow_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x3200000.Idx) :
    IsRow (m ((c.tc : Thread Cert.KernelIdeal.nD Cert.KernelIdeal.τ).loc Cert.KernelIdeal.main_arg2) i) :=
  isRow_of_fn _ _ _ _ _ _ _ _ _ (h c) i

end Cert.Proof.PreRange

end
-- ==== Proof.lean ====
/-
  A graph layer: an edge update over gathered endpoint features, and a node linear layer.

  Both programs compute, over the extended reals,
      out[n, j] = Σ_{k<2} x[n, k] · Wn[k, j] + bn[j]                                  (100000 × 2)
      ef[e, j]  = Σ_{k<14} [hid[e, ·] | x[row[e], ·] | x[col[e], ·]][k] · Wu[k, j] + bu[j]   (3200000 × 10)
  with hid[e, h] = Σ_{k<2} E[e, k] · We[k, h] + be[h]. The reference joins the three pieces into a row of length 14
  and takes one product with the 14×10 weight. The kernel looks the endpoint rows up on the host, cuts the weight
  into its row blocks 0–9, 10–11, 12–13, and in blocks of 4000 edges takes three products and adds them; a second
  call does the node layer in blocks of 4000 nodes. A sum over 14 is the sum of the sums over its three stretches,
  and that is all the algebra there is: addition of extended reals is commutative and associative, so finiteness
  of the inputs is never used.

  The one place the two differ is an index outside 0 … 99999: the kernel's lookup puts a fill value there, the
  reference's gather clamps. The precondition says every index is a row number of the table; then the fill is
  never taken and both read the same row.
-/
import proofs.«427230_j86612310491809_2_alg».proof.Defs
import proofs.«427230_j86612310491809_2_alg».proof.Proof.Gen.Kernel
import proofs.«427230_j86612310491809_2_alg».proof.Proof.Gen.Kernel.Frame
import proofs.«427230_j86612310491809_2_alg».proof.Proof.Gen.KernelIdeal
import proofs.«427230_j86612310491809_2_alg».proof.Proof.Gen.KernelIdeal.Frame
import proofs.«427230_j86612310491809_2_alg».proof.Proof.Gen.ReferenceIdeal
import proofs.«427230_j86612310491809_2_alg».proof.Proof.Gen.ReferenceIdeal.Run
import proofs.«427230_j86612310491809_2_alg».proof.Proof.Gen.ReferenceIdeal.Read
import proofs.«427230_j86612310491809_2_alg».proof.Proof.Gen.Pre_finite_inputs
import proofs.«427230_j86612310491809_2_alg».proof.Proof.KernelValue
import proofs.«427230_j86612310491809_2_alg».proof.Proof.RefStages
import proofs.«427230_j86612310491809_2_alg».proof.Proof.PreRange
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both runs end with the node result at `Spec.nodeLin` and the edge result at `Spec.edgeOut` of arguments that
    agree, the endpoint tables the same gather of the node table on both sides. -/
theorem algebraic : Cert.algebraic_KernelIdeal_ReferenceIdeal := by
  intro m ρ m' ρ' hpre hagree
  refine ⟨fun c => Cert.KernelIdeal.Results.nodeOf m c, fun c => Cert.KernelIdeal.Results.edgeOf m c,
    Cert.KernelIdeal.Results.run m ρ (fun c i => PreRange.isRow_of_pre m hpre c i), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    refine (Cert.ReferenceIdeal.Read.val_main_v30_eq _ _ _).trans ((Cert.ReferenceIdeal.RefValue.node_eq _ _ _).trans ?_)
    rw [a0, a7, a8]
  · obtain ⟨a0, a1, a2, a3, a4, a5, a6, a7, a8⟩ := hagree c
    refine (Cert.ReferenceIdeal.Read.val_main_v26_eq _ _ _ _ _ _ _).trans ((Cert.ReferenceIdeal.RefValue.edge_eq _ _ _ _ _ _ _).trans ?_)
    rw [a0, a1, a2, a3, a4, a5, a6] <;> rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
